-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x32 : Shape := ⟨3, ![8, 4096, 32]⟩
abbrev S64x64 : Shape := ⟨2, ![64, 64]⟩
abbrev S64 : Shape := ⟨1, ![64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_arg1 : IVec S8x4096x32 32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S8x4096x32 32 := broadcastInDim S8x4096x32 ![] bcast_S_S8x4096x32 main_c_8
  let main_v25 : IVec S8x4096x32 1 := cmpi .sge main_arg1 main_v24
  let main_c_9 : IVec S_ 1 := constantI S_ 1 1#1
  let main_v26 : IVec S_ 1 := (fun x v => Host.reduce IntOp.andi x v reducesTo_S8x4096x32_S_d0_1_2 h_S_) main_v25 main_c_9
  let main_v27 : IVec S_ 1 := andi main_v23 main_v26
  let main_c_10 : IVec S_ 32 := constantI S_ 32 4096#32
  let main_v28 : IVec S8x4096x32 32 := broadcastInDim S8x4096x32 ![] bcast_S_S8x4096x32 main_c_10
  let main_v29 : IVec S8x4096x32 1 := cmpi .slt main_arg1 main_v28
  let main_c_11 : IVec S_ 1 := constantI S_ 1 1#1
  let main_v30 : IVec S_ 1 := (fun x v => Host.reduce IntOp.andi x v reducesTo_S8x4096x32_S_d0_1_2 h_S_) main_v29 main_c_11
  let main_v31 : IVec S_ 1 := andi main_v27 main_v30
  main_v31

def fn {F : FTy → Type} [FloatOps F] (main_arg0 : FVec F S8x4096x64 .f32) (main_arg1 : IVec S8x4096x32 32) (main_arg2 : FVec F S64x64 .f32) (main_arg3 : FVec F S64 .f32) (main_arg4 : FVec F S64 .f32) (main_arg5 : FVec F S64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_v13 main_v16
-- ==== Kernel.lean ====
abbrev S8x4096x64 : Shape := ⟨3, ![8, 4096, 64]⟩
abbrev S8x4096x32 : Shape := ⟨3, ![8, 4096, 32]⟩
abbrev S64x64 : Shape := ⟨2, ![64, 64]⟩
abbrev S64 : Shape := ⟨1, ![64]⟩
abbrev S1x4096x64 : Shape := ⟨3, ![1, 4096, 64]⟩
abbrev S1x128x32 : Shape := ⟨3, ![1, 128, 32]⟩
abbrev S1x128x64 : Shape := ⟨3, ![1, 128, 64]⟩
abbrev S4096x64 : Shape := ⟨2, ![4096, 64]⟩
abbrev S1x64 : Shape := ⟨2, ![1, 64]⟩
abbrev S128x64 : Shape := ⟨2, ![128, 64]⟩
abbrev S128x32 : Shape := ⟨2, ![128, 32]⟩
abbrev S128x4096 : Shape := ⟨2, ![128, 4096]⟩
abbrev S128x1 : Shape := ⟨2, ![128, 1]⟩
abbrev S32768x64 : Shape := ⟨2, ![32768, 64]⟩
abbrev S_ : Shape := ⟨0, ![]⟩

abbrev nBuf : Space → Nat
  | .hbm => 56
  | .vmem => 9
  | .smem => 0
  | _ => 0

abbrev bufTy : (tb : Table) → Fin (tcTables nBuf tb) → BufTy
  | .hbm, ⟨0, _⟩ => ⟨S8x4096x64, .f32⟩
  | .hbm, ⟨1, _⟩ => ⟨S8x4096x32, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x4096x64, .bf16⟩
  | .hbm, ⟨7, _⟩ => ⟨S64x64, .f32⟩
  | .hbm, ⟨8, _⟩ => ⟨S64x64, .bf16⟩
  | .hbm, ⟨9, _⟩ => ⟨S8x4096x64, .f32⟩
  | .hbm, ⟨10, _⟩ => ⟨S32768x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S_, .f32⟩
  | .hbm, ⟨21, _⟩ => ⟨S1x64, .f32⟩
  | .hbm, ⟨22, _⟩ => ⟨S1x64, .f32⟩
  | .hbm, ⟨23, _⟩ => ⟨S32768x64, .f32⟩
  | .hbm, ⟨24, _⟩ => ⟨S32768x64, .f32⟩
  | .hbm, ⟨25, _⟩ => ⟨S32768x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S32768x64, .f32⟩
  | .hbm, ⟨41, _⟩ => ⟨S32768x64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S32768x64, .f32⟩
  | .hbm, ⟨48, _⟩ => ⟨S32768x64, .f32⟩
  | .hbm, ⟨49, _⟩ => ⟨S1x64, .f32⟩
  | .hbm, ⟨50, _⟩ => ⟨S32768x64, .f32⟩
  | .hbm, ⟨51, _⟩ => ⟨S32768x64, .f32⟩
  | .hbm, ⟨52, _⟩ => ⟨S1x64, .f32⟩
  | .hbm, ⟨53, _⟩ => ⟨S32768x64, .f32⟩
  | .hbm, ⟨54, _⟩ => ⟨S32768x64, .f32⟩
  | .hbm, ⟨55, _⟩ => ⟨S8x4096x64, .f32⟩
  | .local _ .vmem, ⟨0, _⟩ => ⟨S1x4096x64, .bf16⟩
  | .local _ .vmem, ⟨1, _⟩ => ⟨S1x4096x64, .bf16⟩
  | .local _ .vmem, ⟨2, _⟩ => ⟨S64x64, .bf16⟩
  | .local _ .vmem, ⟨3, _⟩ => ⟨S64, .f32⟩
  | .local _ .vmem, ⟨4, _⟩ => ⟨S1x128x32, .i32⟩
  | .local _ .vmem, ⟨5, _⟩ => ⟨S1x128x32, .i32⟩
  | .local _ .vmem, ⟨6, _⟩ => ⟨S1x128x64, .f32⟩
  | .local _ .vmem, ⟨7, _⟩ => ⟨S1x128x64, .f32⟩
  | .local _ .vmem, ⟨8, _⟩ => ⟨S4096x64, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_cst_3 : Ref sig .tc := ⟨.hbm, 33, rfl⟩
abbrev main_call0_v12 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c128_i32 : BitVec 32 := 128#32
  let v4 : BitVec 32 := Scalar.muli arg1 c128_i32
  v4
def k0_off1 (i : grid0.Coords) : Fin 2 → Nat :=
  let arg1 : BitVec 32 := BitVec.ofNat 32 (i 1).val
  let c128_i32 : BitVec 32 := 128#32
  let v4 : BitVec 32 := Scalar.muli arg1 c128_i32
  let v5 : BitVec 32 := v4
  let v6 : Index := Scalar.indexCast v5
  let c0_2 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S64x64_S64x64_1_0 : S64x64.Transposes [1, 0] S64x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  h_S128x64 : 0 < S128x64.numel
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  iota_S128x4096_d1_w32 : S128x4096.Iotas .tc 32 [1]
  slices_S128x32_o0_0_S128x1 : S128x32.Slices ![0, 0] S128x1
  broadcasts_S128x1_S128x4096 : S128x1.Broadcasts S128x4096
  natLt_1_32 : 1 < 32
  slices_S128x32_o0_1_S128x1 : S128x32.Slices ![0, 1] S128x1
  slices_S128x32_o0_2_S128x1 : S128x32.Slices ![0, 2] S128x1
  slices_S128x32_o0_3_S128x1 : S128x32.Slices ![0, 3] S128x1
  slices_S128x32_o0_4_S128x1 : S128x32.Slices ![0, 4] S128x1
  slices_S128x32_o0_5_S128x1 : S128x32.Slices ![0, 5] S128x1
  slices_S128x32_o0_6_S128x1 : S128x32.Slices ![0, 6] S128x1
  slices_S128x32_o0_7_S128x1 : S128x32.Slices ![0, 7] S128x1
  slices_S128x32_o0_8_S128x1 : S128x32.Slices ![0, 8] S128x1
  slices_S128x32_o0_9_S128x1 : S128x32.Slices ![0, 9] S128x1
  slices_S128x32_o0_10_S128x1 : S128x32.Slices ![0, 10] S128x1
  slices_S128x32_o0_11_S128x1 : S128x32.Slices ![0, 11] S128x1
  slices_S128x32_o0_12_S128x1 : S128x32.Slices ![0, 12] S128x1
  slices_S128x32_o0_13_S128x1 : S128x32.Slices ![0, 13] S128x1
  slices_S128x32_o0_14_S128x1 : S128x32.Slices ![0, 14] S128x1
  slices_S128x32_o0_15_S128x1 : S128x32.Slices ![0, 15] S128x1
  slices_S128x32_o0_16_S128x1 : S128x32.Slices ![0, 16] S128x1
  slices_S128x32_o0_17_S128x1 : S128x32.Slices ![0, 17] S128x1
  slices_S128x32_o0_18_S128x1 : S128x32.Slices ![0, 18] S128x1
  slices_S128x32_o0_19_S128x1 : S128x32.Slices ![0, 19] S128x1
  slices_S128x32_o0_20_S128x1 : S128x32.Slices ![0, 20] S128x1
  slices_S128x32_o0_21_S128x1 : S128x32.Slices ![0, 21] S128x1
  slices_S128x32_o0_22_S128x1 : S128x32.Slices ![0, 22] S128x1
  slices_S128x32_o0_23_S128x1 : S128x32.Slices ![0, 23] S128x1
  slices_S128x32_o0_24_S128x1 : S128x32.Slices ![0, 24] S128x1
  slices_S128x32_o0_25_S128x1 : S128x32.Slices ![0, 25] S128x1
  slices_S128x32_o0_26_S128x1 : S128x32.Slices ![0, 26] S128x1
  slices_S128x32_o0_27_S128x1 : S128x32.Slices ![0, 27] S128x1
  slices_S128x32_o0_28_S128x1 : S128x32.Slices ![0, 28] S128x1
  slices_S128x32_o0_29_S128x1 : S128x32.Slices ![0, 29] S128x1
  slices_S128x32_o0_30_S128x1 : S128x32.Slices ![0, 30] S128x1
  slices_S128x32_o0_31_S128x1 : S128x32.Slices ![0, 31] S128x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  shapeCasts_S8x4096x64_S32768x64 : S8x4096x64.ShapeCasts S32768x64
  reducesTo_S32768x64_S64_d0 : S32768x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S32768x64_0_1 : S1x64.BroadcastsInDim S32768x64 (![0, 1] : Fin 2 → Fin S32768x64.rank)
  shapeCasts_S32768x64_S8x4096x64 : S32768x64.ShapeCasts S8x4096x64
  dot_S4096x64_S64x64_S4096x64_1_0_0_1_n_n_wf : DotDims.WF S4096x64 S64x64 S4096x64 [1] [0] [0] [1] [] []
  dot_S128x4096_S4096x64_S128x64_1_0_0_1_n_n_wf : DotDims.WF S128x4096 S4096x64 S128x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x4096x64.size a
  hwx0_0 : ∀ i : grid0.Coords, EltTy.bits .bf16 = 32 ∨ (Rect.block (s := S8x4096x64) S1x4096x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x32.size a ≤ S8x4096x32.size a
  hwx0_3 : ∀ i : grid0.Coords, EltTy.bits .i32 = 32 ∨ (Rect.block (s := S8x4096x32) S1x128x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64.size a ≤ S8x4096x64.size a
  hwx0_4 : ∀ i : grid0.Coords, EltTy.bits .f32 = 32 ∨ (Rect.block (s := S8x4096x64) S1x128x64.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x32 : Shape := ⟨3, ![8, 4096, 32]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S8x4096x32x1 : Shape := ⟨4, ![8, 4096, 32, 1]⟩
abbrev S8x4096x32x64 : Shape := ⟨4, ![8, 4096, 32, 64]⟩
abbrev S8x4096x1x64 : Shape := ⟨4, ![8, 4096, 1, 64]⟩
abbrev S32768x64 : Shape := ⟨2, ![32768, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x32, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x4096x64, .f32⟩
  | .hbm, ⟨7, _⟩ => ⟨S1x1x64, .f32⟩
  | .hbm, ⟨8, _⟩ => ⟨S8x4096x64, .f32⟩
  | .hbm, ⟨9, _⟩ => ⟨S8x4096x64, .f32⟩
  | .hbm, ⟨10, _⟩ => ⟨S_, .i32⟩
  | .hbm, ⟨11, _⟩ => ⟨S8x4096x32, .i32⟩
  | .hbm, ⟨12, _⟩ => ⟨S8x4096x32, .i1⟩
  | .hbm, ⟨13, _⟩ => ⟨S_, .i32⟩
  | .hbm, ⟨14, _⟩ => ⟨S8x4096x32, .i32⟩
  | .hbm, ⟨15, _⟩ => ⟨S8x4096x32, .i32⟩
  | .hbm, ⟨16, _⟩ => ⟨S8x4096x32, .i32⟩
  | .hbm, ⟨17, _⟩ => ⟨S8x4096x32x1, .i32⟩
  | .hbm, ⟨18, _⟩ => ⟨S8x4096x32x64, .f32⟩
  | .hbm, ⟨19, _⟩ => ⟨S8x4096x1x64, .f32⟩
  | .hbm, ⟨20, _⟩ => ⟨S8x4096x32x64, .f32⟩
  | .hbm, ⟨21, _⟩ => ⟨S8x4096x32x64, .f32⟩
  | .hbm, ⟨22, _⟩ => ⟨S_, .f32⟩
  | .hbm, ⟨23, _⟩ => ⟨S8x4096x64, .f32⟩
  | .hbm, ⟨24, _⟩ => ⟨S32768x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .i32⟩
  | .hbm, ⟨31, _⟩ => ⟨S_, .f32⟩
  | .hbm, ⟨32, _⟩ => ⟨S64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S32768x64, .f32⟩
  | .hbm, ⟨38, _⟩ => ⟨S32768x64, .f32⟩
  | .hbm, ⟨39, _⟩ => ⟨S32768x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S1x64, .f32⟩
  | .hbm, ⟨54, _⟩ => ⟨S32768x64, .f32⟩
  | .hbm, ⟨55, _⟩ => ⟨S32768x64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S32768x64, .f32⟩
  | .hbm, ⟨62, _⟩ => ⟨S32768x64, .f32⟩
  | .hbm, ⟨63, _⟩ => ⟨S1x64, .f32⟩
  | .hbm, ⟨64, _⟩ => ⟨S32768x64, .f32⟩
  | .hbm, ⟨65, _⟩ => ⟨S32768x64, .f32⟩
  | .hbm, ⟨66, _⟩ => ⟨S1x64, .f32⟩
  | .hbm, ⟨67, _⟩ => ⟨S32768x64, .f32⟩
  | .hbm, ⟨68, _⟩ => ⟨S32768x64, .f32⟩
  | .hbm, ⟨69, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x32 : S_.BroadcastsInDim S8x4096x32 (![] : Fin 0 → Fin S8x4096x32.rank)
  bcast_S8x4096x32_S8x4096x32x1_0_1_2 : S8x4096x32.BroadcastsInDim S8x4096x32x1 (![0, 1, 2] : Fin 3 → Fin S8x4096x32x1.rank)
  bcast_S8x4096x64_S8x4096x1x64_0_1_3 : S8x4096x64.BroadcastsInDim S8x4096x1x64 (![0, 1, 3] : Fin 3 → Fin S8x4096x1x64.rank)
  bcast_S8x4096x1x64_S8x4096x32x64_0_1_2_3 : S8x4096x1x64.BroadcastsInDim S8x4096x32x64 (![0, 1, 2, 3] : Fin 4 → Fin S8x4096x32x64.rank)
  reducesTo_S8x4096x32x64_S8x4096x64_d2 : S8x4096x32x64.ReducesTo [2] S8x4096x64
  h_S_ : 0 < S_.numel
  shapeCasts_S8x4096x64_S32768x64 : S8x4096x64.ShapeCasts S32768x64
  reducesTo_S32768x64_S64_d0 : S32768x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S32768x64_0_1 : S1x64.BroadcastsInDim S32768x64 (![0, 1] : Fin 2 → Fin S32768x64.rank)
  shapeCasts_S32768x64_S8x4096x64 : S32768x64.ShapeCasts S8x4096x64
  dot_S8x4096x64_S64x64_S8x4096x64_2_1_01_0_n_n_wf : DotDims.WF S8x4096x64 S64x64 S8x4096x64 [2] [1] [0, 1] [0] [] []
  gather_S8x4096x64_S8x4096x32x1_S8x4096x32x64_3_1_0_0_1_3_1164_wf : GatherDims.WF S8x4096x64 S8x4096x32x1 S8x4096x32x64 [3] [1] [0] [1] [0] 3 ![1, 1, 64]

variable [Facts₀]

def dot_S8x4096x64_S64x64_S8x4096x64_2_1_01_0_n_n : DotDims S8x4096x64 S64x64 S8x4096x64 where
  lhsContracting := [2]
  rhsContracting := [1]
  lhsNonContracting := [0, 1]
  rhsNonContracting := [0]
  lhsBatch := []
  rhsBatch := []
  wf := dot_S8x4096x64_S64x64_S8x4096x64_2_1_01_0_n_n_wf
def gather_S8x4096x64_S8x4096x32x1_S8x4096x32x64_3_1_0_0_1_3_1164 : GatherDims S8x4096x64 S8x4096x32x1 S8x4096x32x64 where
  offsetDims := [3]
  collapsedSliceDims := [1]
  operandBatchingDims := [0]
  startIndicesBatchingDims := [0]
  startIndexMap := [1]
  indexVectorDim := 3
  sliceSizes := ![1, 1, 64]
  wf := gather_S8x4096x64_S8x4096x32x1_S8x4096x32x64_3_1_0_0_1_3_1164_wf

class Facts : Prop extends Facts₀ where

variable [Facts]
-- ==== Proof.Spec.lean ====
/-
  What both programs compute before the batch normalisation, as functions of the argument arrays over the
  extended reals.

  Points x[b, n, ·] (8 batches of 4096 points, 64 features) go through a linear layer
  h[b, n, o] = Σ_c x[b, n, c] · W[o, c] + bias[o]. Each point n has 32 neighbours idx[b, n, k], row numbers of the
  same batch. The edge feature of neighbour k is h[b, idx[b, n, k], o] − h[b, n, o], and the pooled feature is
  the maximum of the 32 edge features. The maximum over a finite family is its supremum in the order of the
  extended reals, whose bottom element is −∞, so a running maximum started at −∞ and taken one neighbour at a
  time passes through the suprema of the initial segments of the family (`supTo`).

  A row of a table picked by a 0/1 indicator row: Σ_j [j = i] · t j = t i, because 0 · y = 0 and 1 · y = y for
  every extended real y, infinite ones included (`indicator_sum`).
-/
import Idealize.ShloMosaic.PureOps.Ideal
import Idealize.ShloMosaic.Lib.ValueIdx

noncomputable section

namespace Cert.EdgePool

open Idealize.ShloMosaic Idealize.ShloMosaic.ValueIdx

/-- Point features, and every array of that layout: [8, 4096, 64]. -/
abbrev SX : Shape := ⟨3, ![8, 4096, 64]⟩
/-- The neighbour table: [8, 4096, 32]. -/
abbrev SI : Shape := ⟨3, ![8, 4096, 32]⟩
/-- The weights, [out, in] = [64, 64]. -/
abbrev SW : Shape := ⟨2, ![64, 64]⟩
/-- A per-channel vector: [64]. -/
abbrev SV : Shape := ⟨1, ![64]⟩

/-- The linear layer at (b, n, o): Σ_c x[b, n, c] · W[o, c] + bias[o]. -/
def lin (x : SX.Idx → EReal) (W : SW.Idx → EReal) (bias : SV.Idx → EReal) (b : Fin 8) (n : Fin 4096) (o : Fin 64) : EReal :=
  (∑ c : Fin 64, x (ix3 b n c) * W (ix2 o c)) + bias (ix1 o)

/-- Every entry of the neighbour table is a row number: as an unsigned word it is below 4096 (equivalently,
    as a signed word it lies in [0, 4096)). -/
def InRange (idx : SI.Idx → BitVec 32) : Prop := ∀ j : SI.Idx, (idx j).toNat < 4096

/-- Neighbour k of point n in batch b, as a row number (total: reduced modulo 4096, which changes nothing on
    a table in range). -/
def nbr (idx : SI.Idx → BitVec 32) (b : Fin 8) (n : Fin 4096) (k : Fin 32) : Fin 4096 :=
  ⟨(idx (ix3 b n k)).toNat % 4096, Nat.mod_lt _ (by decide)⟩

theorem nbr_val (idx : SI.Idx → BitVec 32) (hidx : InRange idx) (b : Fin 8) (n : Fin 4096) (k : Fin 32) :
    (nbr idx b n k).val = (idx (ix3 b n k)).toNat :=
  Nat.mod_eq_of_lt (hidx _)

/-- The same layer over weights stored transposed, Wt[in, out]: Σ_c x[b, n, c] · Wt[c, o] + bias[o]. -/
def linT (x : SX.Idx → EReal) (Wt : SW.Idx → EReal) (bias : SV.Idx → EReal) (b : Fin 8) (n : Fin 4096) (o : Fin 64) : EReal :=
  (∑ c : Fin 64, x (ix3 b n c) * Wt (ix2 c o)) + bias (ix1 o)

/-- Over the transpose of W the two spellings are one function. -/
theorem linT_transpose (x : SX.Idx → EReal) (W : SW.Idx → EReal) (bias : SV.Idx → EReal) :
    linT x (fun j => W (ix2 (j 1) (j 0))) bias = lin x W bias := rfl

/-- The edge feature of neighbour k at (b, n, o) over a table h of per-point features:
    h[b, idx[b, n, k], o] − h[b, n, o]. -/
def edgeOf (h : Fin 8 → Fin 4096 → Fin 64 → EReal) (idx : SI.Idx → BitVec 32)
    (b : Fin 8) (n : Fin 4096) (o : Fin 64) (k : Fin 32) : EReal :=
  h b (nbr idx b n k) o - h b n o

/-- The pooled feature at (b, n, o): the largest of the 32 edge features. -/
def pooledAt (h : Fin 8 → Fin 4096 → Fin 64 → EReal) (idx : SI.Idx → BitVec 32) (b : Fin 8) (n : Fin 4096) (o : Fin 64) : EReal :=
  Finset.univ.sup (edgeOf h idx b n o)

/-- The pooled features over a table h, as an array. -/
def pooledOf (h : Fin 8 → Fin 4096 → Fin 64 → EReal) (idx : SI.Idx → BitVec 32) : SX.Idx → EReal :=
  fun j => pooledAt h idx (j 0) (j 1) (j 2)

theorem pooledOf_ix3 (h : Fin 8 → Fin 4096 → Fin 64 → EReal) (idx : SI.Idx → BitVec 32)
    (b : Fin 8) (n : Fin 4096) (o : Fin 64) : pooledOf h idx (ix3 b n o) = pooledAt h idx b n o := rfl

/-- The pooled features of the linear layer's output: what both programs hand to the batch normalisation. -/
def pooled (x : SX.Idx → EReal) (W : SW.Idx → EReal) (bias : SV.Idx → EReal) (idx : SI.Idx → BitVec 32) : SX.Idx → EReal :=
  pooledOf (lin x W bias) idx

/-! ## A running maximum from −∞ -/

/-- The supremum of the first n members of a family of 32 extended reals. -/
def supTo (e : Fin 32 → EReal) (n : ℕ) : EReal := (Finset.univ.filter fun k : Fin 32 => k.val < n).sup e

theorem supTo_zero (e : Fin 32 → EReal) : supTo e 0 = ⊥ := by
  simp [supTo]

/-- One more member: the maximum of what there was and the new one. -/
theorem supTo_succ (e : Fin 32 → EReal) (n : ℕ) (hn : n < 32) : supTo e (n + 1) = max (supTo e n) (e ⟨n, hn⟩) := by
  unfold supTo
  have hs : (Finset.univ.filter fun k : Fin 32 => k.val < n + 1)
      = insert (⟨n, hn⟩ : Fin 32) (Finset.univ.filter fun k : Fin 32 => k.val < n) := by
    ext k
    simp only [Finset.mem_filter, Finset.mem_univ, true_and, Finset.mem_insert, Fin.ext_iff]
    omega
  rw [hs, Finset.sup_insert, sup_comm]

theorem supTo_all (e : Fin 32 → EReal) : supTo e 32 = Finset.univ.sup e := by
  unfold supTo
  rw [Finset.filter_true_of_mem fun k _ => k.isLt]

/-! ## A row picked by an indicator -/

/-- Σ_j [j = i] · t j = t i over the extended reals: every other term is 0 · t j = 0. -/
theorem indicator_sum {N : ℕ} (t : Fin N → EReal) (i : Fin N) :
    (∑ j : Fin N, (if j = i then (1 : EReal) else 0) * t j) = t i := by
  rw [Finset.sum_eq_single i]
  · rw [if_pos rfl, one_mul]
  · intro j _ hj
    rw [if_neg hj, zero_mul]
  · intro h
    exact absurd (Finset.mem_univ i) h

end Cert.EdgePool

end
-- ==== Proof.Tail.lean ====
/-
  The batch normalisation both programs apply to the pooled features, as one function of its operand.

  The pooled array [8, 4096, 64] is flattened to 32768 rows of 64 channels. Per channel: the mean is the sum
  of the rows divided by 32768; the (biased) variance is the sum of the squared deviations from the mean
  divided by 32768 − 0 (a zero correction term, guarded by "the divisor is positive"); the output is
  (row − mean) · (variance + ε)^(−1/2) · γ + β, reshaped back. Both programs apply exactly these host
  operations, in this order and with these literals, so the certificate carries them as one function and
  never opens it: equal operands give equal results.

  The shape side conditions the operations take are propositions; two programs that state them separately
  still define the same function.
-/
import Idealize.ShloMosaic.PureOps.Ideal
import proofs.«431289_j61538291417252_2_alg».proof.Proof.Spec

noncomputable section

namespace Cert.EdgePool

open Idealize.ShloMosaic

/-- The flattened layout: [32768, 64]. -/
abbrev SF : Shape := ⟨2, ![32768, 64]⟩
/-- A per-channel row: [1, 64]. -/
abbrev SR : Shape := ⟨2, ![1, 64]⟩
/-- A scalar. -/
abbrev S0 : Shape := ⟨0, ![]⟩

/-- The shape side conditions of the tail's operations. -/
structure TailFacts : Prop where
  pos : 0 < S0.numel
  toFlat : SX.ShapeCasts SF
  red : SF.ReducesTo [0] SV
  b0v : S0.BroadcastsInDim SV (![] : Fin 0 → Fin SV.rank)
  bvr : SV.BroadcastsInDim SR (![1] : Fin 1 → Fin SR.rank)
  b0r : S0.BroadcastsInDim SR (![] : Fin 0 → Fin SR.rank)
  brf : SR.BroadcastsInDim SF (![0, 1] : Fin 2 → Fin SF.rank)
  ofFlat : SF.ShapeCasts SX

/-- A per-channel vector spread over the 32768 rows. -/
def rows (hf : TailFacts) (v : FVec Ideal SV .f32) : FVec Ideal SF .f32 :=
  broadcastInDim SF ![0, 1] hf.brf (broadcastInDim SR ![1] hf.bvr v)

/-- The per-channel mean of the rows: their sum divided by 32768. -/
def meanOf (hf : TailFacts) (flat : FVec Ideal SF .f32) : FVec Ideal SV .f32 :=
  Host.divf (F := Ideal) (Host.reduceAdd (F := Ideal) flat (constant (F := Ideal) S0 .f32 0x00000000#32) hf.red hf.pos)
    (broadcastInDim SV ![] hf.b0v (constant (F := Ideal) S0 .f32 0x47000000#32))

/-- The per-channel biased variance of the rows, as jnp's `var` spells it: the mean is taken through a [1, 64]
    row, the squared deviations are summed and divided by 32768 − 0, and the quotient is kept where that
    divisor is positive. -/
def varOf (hf : TailFacts) (flat : FVec Ideal SF .f32) : FVec Ideal SV .f32 :=
  select
    (broadcastInDim SV ![] hf.b0v
      (cmpf .ogt
        (subf (constant (F := Ideal) S0 .f32 0x47000000#32) (sitofp (F := Ideal) .f32 (constantI S0 32 0#32)))
        (constant (F := Ideal) S0 .f32 0x00000000#32)))
    (Host.divf (F := Ideal)
      (Host.reduceAdd (F := Ideal)
        (mulf
          (subf flat (broadcastInDim SF ![0, 1] hf.brf
            (Host.divf (F := Ideal)
              (broadcastInDim SR ![1] hf.bvr
                (Host.reduceAdd (F := Ideal) flat (constant (F := Ideal) S0 .f32 0x00000000#32) hf.red hf.pos))
              (broadcastInDim SR ![] hf.b0r (constant (F := Ideal) S0 .f32 0x47000000#32)))))
          (subf flat (broadcastInDim SF ![0, 1] hf.brf
            (Host.divf (F := Ideal)
              (broadcastInDim SR ![1] hf.bvr
                (Host.reduceAdd (F := Ideal) flat (constant (F := Ideal) S0 .f32 0x00000000#32) hf.red hf.pos))
              (broadcastInDim SR ![] hf.b0r (constant (F := Ideal) S0 .f32 0x47000000#32))))))
        (constant (F := Ideal) S0 .f32 0x00000000#32) hf.red hf.pos)
      (broadcastInDim SV ![] hf.b0v
        (subf (constant (F := Ideal) S0 .f32 0x47000000#32) (sitofp (F := Ideal) .f32 (constantI S0 32 0#32)))))
    (broadcastInDim SV ![] hf.b0v (id (constant (F := Ideal) S0 .f32 0x7FC00000#32)))

/-- The normalisation of the flattened rows: (row − mean) · rsqrt(variance + ε) · γ + β. -/
def normFlat (hf : TailFacts) (flat : FVec Ideal SF .f32) (γ β : FVec Ideal SV .f32) : FVec Ideal SF .f32 :=
  addf
    (mulf
      (mulf (subf flat (rows hf (meanOf hf flat)))
        (rows hf (Host.rsqrt (F := Ideal)
          (addf (varOf hf flat) (broadcastInDim SV ![] hf.b0v (constant (F := Ideal) S0 .f32 0x3727C5AC#32))))))
      (rows hf γ))
    (rows hf β)

/-- The whole tail: flatten, normalise, reshape back. -/
def bnTail (hf : TailFacts) (agg : FVec Ideal SX .f32) (γ β : FVec Ideal SV .f32) : FVec Ideal SX .f32 :=
  shapeCast SX (normFlat hf (shapeCast SF agg hf.toFlat) γ β) hf.ofFlat

/-- The side conditions are propositions: any two witnesses give the same tail. -/
theorem bnTail_facts (hf hf' : TailFacts) : bnTail hf = bnTail hf' := rfl

end Cert.EdgePool

end
-- ==== Proof.RefDefs.lean ====
/-
  The reference's value before the batch normalisation, as the composition of its host operations over the
  argument arrays: the linear layer (a contraction of x's last axis with W's last axis, plus the bias spread
  over batches and points), the start indices of the neighbour gather (a negative entry moved up by 4096,
  then the table given a trailing unit axis), the gather of whole feature rows within each batch, the
  subtraction of the point's own row spread over its 32 neighbours, and the maximum over the neighbour axis
  started at −∞.
-/
import proofs.«431289_j61538291417252_2_alg».proof.Proof.Gen.ReferenceIdeal
import proofs.«431289_j61538291417252_2_alg».proof.Proof.Tail

noncomputable section

namespace Cert.ReferenceIdeal.RefValue

open Idealize.ShloMosaic Cert.ReferenceIdeal
open Cert.ReferenceIdeal.Facts₀ Cert.ReferenceIdeal.Facts

/-- The linear layer's output, h = x · Wᵀ + bias. -/
def refH (x : FVec Ideal S8x4096x64 .f32) (W : FVec Ideal S64x64 .f32) (bias : FVec Ideal S64 .f32) : FVec Ideal S8x4096x64 .f32 :=
  addf (Host.dotGeneral (F := Ideal) dot_S8x4096x64_S64x64_S8x4096x64_2_1_01_0_n_n none x W)
    (broadcastInDim S8x4096x64 ![0, 1, 2] bcast_S1x1x64_S8x4096x64_0_1_2
      (broadcastInDim S1x1x64 ![2] bcast_S64_S1x1x64_2 bias))

/-- The gather's start indices: an entry below zero is moved up by 4096; then a trailing unit axis. -/
def refStart (idx : IVec S8x4096x32 32) : IVec S8x4096x32x1 32 :=
  broadcastInDim S8x4096x32x1 ![0, 1, 2] bcast_S8x4096x32_S8x4096x32x1_0_1_2
    (select (cmpi .slt idx (broadcastInDim S8x4096x32 ![] bcast_S_S8x4096x32 (constantI S_ 32 0#32)))
      (addi idx (broadcastInDim S8x4096x32 ![] bcast_S_S8x4096x32 (constantI S_ 32 4096#32)))
      idx)

/-- The pooled features as the reference computes them. -/
def refAgg (x : FVec Ideal S8x4096x64 .f32) (idx : IVec S8x4096x32 32) (W : FVec Ideal S64x64 .f32) (bias : FVec Ideal S64 .f32) :
    FVec Ideal S8x4096x64 .f32 :=
  Host.reduce FloatOps.maximumf
    (subf
      (Host.gather gather_S8x4096x64_S8x4096x32x1_S8x4096x32x64_3_1_0_0_1_3_1164 (refH x W bias) (refStart idx))
      (broadcastInDim S8x4096x32x64 ![0, 1, 2, 3] bcast_S8x4096x1x64_S8x4096x32x64_0_1_2_3
        (broadcastInDim S8x4096x1x64 ![0, 1, 3] bcast_S8x4096x64_S8x4096x1x64_0_1_3 (refH x W bias))))
    (constant (F := Ideal) S_ .f32 0xFF800000#32) reducesTo_S8x4096x32x64_S8x4096x64_d2 h_S_

/-- The tail's side conditions, as the reference states them. -/
theorem tailFacts : Cert.EdgePool.TailFacts :=
  ⟨h_S_, shapeCasts_S8x4096x64_S32768x64, reducesTo_S32768x64_S64_d0, bcast_S_S64, bcast_S64_S1x64_1, bcast_S_S1x64,
    bcast_S1x64_S32768x64_0_1, shapeCasts_S32768x64_S8x4096x64⟩

/-- The reference's result as a function of its arguments. -/
def refOut (x : FVec Ideal S8x4096x64 .f32) (idx : IVec S8x4096x32 32) (W : FVec Ideal S64x64 .f32) (bias γ β : FVec Ideal S64 .f32) :
    FVec Ideal S8x4096x64 .f32 :=
  Cert.EdgePool.bnTail tailFacts (refAgg x idx W bias) γ β

end Cert.ReferenceIdeal.RefValue

end
-- ==== Proof.RefRun.lean ====
/-
  The reference's run: @main as one straight line of host operations (the two outlined functions' operations
  listed at their call over the call's buffers), every weakly fair execution of it, and what the result buffer
  then holds as a function of the argument arrays.
-/
import proofs.«431289_j61538291417252_2_alg».proof.Proof.RefDefs
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal Cert.ReferenceIdeal.RefValue
open Cert.ReferenceIdeal.Facts₀ Cert.ReferenceIdeal.Facts

variable {F : FTy → Type} [FloatOps F]

/-- @main's sixty-four operations in order. Twenty-five come before the call of the variance function; at the call
    stand that function's nineteen operations over the call's own buffers, reading the flattened pooled array and the
    zero correction term, and after them the three operations of the selection function it calls in turn (the
    not-a-number scalar converted to its own type, spread over the 64 channels, and the choice between the quotient
    and it), whose result is the buffer the call returns; seventeen operations follow. -/
abbrev ops : List (HloOp τ sig (Elt F)) :=
  [ binary main_arg0 main_arg2 main_v0 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    unary main_arg3 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S8x4096x64 ![0, 1, 2] bcast_S1x1x64_S8x4096x64_0_1_2 : (⟨S1x1x64, .f32⟩ : BufTy).Contents (Elt F) → (⟨S8x4096x64, .f32⟩ : BufTy).Contents (Elt F)),
    binary main_v0 main_v2 main_v3 (addf : (⟨S8x4096x64, .f32⟩ : BufTy).Contents (Elt F) → (⟨S8x4096x64, .f32⟩ : BufTy).Contents (Elt F) → (⟨S8x4096x64, .f32⟩ : BufTy).Contents (Elt F)),
    nullary main_c (constantI S_ 32 0#32),
    unary main_c main_v4 (broadcastInDim S8x4096x32 ![] bcast_S_S8x4096x32 : (⟨S_, .i32⟩ : BufTy).Contents (Elt F) → (⟨S8x4096x32, .i32⟩ : BufTy).Contents (Elt F)),
    binary main_arg1 main_v4 main_v5 (cmpi .slt : (⟨S8x4096x32, .i32⟩ : BufTy).Contents (Elt F) → (⟨S8x4096x32, .i32⟩ : BufTy).Contents (Elt F) → (⟨S8x4096x32, .i1⟩ : BufTy).Contents (Elt F)),
    nullary main_c_0 (constantI S_ 32 4096#32),
    unary main_c_0 main_v6 (broadcastInDim S8x4096x32 ![] bcast_S_S8x4096x32 : (⟨S_, .i32⟩ : BufTy).Contents (Elt F) → (⟨S8x4096x32, .i32⟩ : BufTy).Contents (Elt F)),
    binary main_arg1 main_v6 main_v7 (addi : (⟨S8x4096x32, .i32⟩ : BufTy).Contents (Elt F) → (⟨S8x4096x32, .i32⟩ : BufTy).Contents (Elt F) → (⟨S8x4096x32, .i32⟩ : BufTy).Contents (Elt F)),
    ternary main_v5 main_v7 main_arg1 main_v8 (select : (⟨S8x4096x32, .i1⟩ : BufTy).Contents (Elt F) → (⟨S8x4096x32, .i32⟩ : BufTy).Contents (Elt F) → (⟨S8x4096x32, .i32⟩ : BufTy).Contents (Elt F) → (⟨S8x4096x32, .i32⟩ : BufTy).Contents (Elt F)),
    unary main_v8 main_v9 (broadcastInDim S8x4096x32x1 ![0, 1, 2] bcast_S8x4096x32_S8x4096x32x1_0_1_2 : (⟨S8x4096x32, .i32⟩ : BufTy).Contents (Elt F) → (⟨S8x4096x32x1, .i32⟩ : BufTy).Contents (Elt F)),
    binary main_v3 main_v9 main_v10 ((fun x i => Host.gather gather_S8x4096x64_S8x4096x32x1_S8x4096x32x64_3_1_0_0_1_3_1164 x i) : (⟨S8x4096x64, .f32⟩ : BufTy).Contents (Elt F) → (⟨S8x4096x32x1, .i32⟩ : BufTy).Contents (Elt F) → (⟨S8x4096x32x64, .f32⟩ : BufTy).Contents (Elt F)),
    unary main_v3 main_v11 (broadcastInDim S8x4096x1x64 ![0, 1, 3] bcast_S8x4096x64_S8x4096x1x64_0_1_3 : (⟨S8x4096x64, .f32⟩ : BufTy).Contents (Elt F) → (⟨S8x4096x1x64, .f32⟩ : BufTy).Contents (Elt F)),
    unary main_v11 main_v12 (broadcastInDim S8x4096x32x64 ![0, 1, 2, 3] bcast_S8x4096x1x64_S8x4096x32x64_0_1_2_3 : (⟨S8x4096x1x64, .f32⟩ : BufTy).Contents (Elt F) → (⟨S8x4096x32x64, .f32⟩ : BufTy).Contents (Elt F)),
    binary main_v10 main_v12 main_v13 (subf : (⟨S8x4096x32x64, .f32⟩ : BufTy).Contents (Elt F) → (⟨S8x4096x32x64, .f32⟩ : BufTy).Contents (Elt F) → (⟨S8x4096x32x64, .f32⟩ : BufTy).Contents (Elt F)),
    nullary main_cst (constant S_ .f32 0xFF800000#32),
    binary main_v13 main_cst main_v14 ((fun x v => Host.reduce FloatOps.maximumf x v reducesTo_S8x4096x32x64_S8x4096x64_d2 h_S_) : (⟨S8x4096x32x64, .f32⟩ : BufTy).Contents (Elt F) → (⟨S_, .f32⟩ : BufTy).Contents (Elt F) → (⟨S8x4096x64, .f32⟩ : BufTy).Contents (Elt F)),
    reshape main_v14 main_v15 rfl shapeCasts_S8x4096x64_S32768x64,
    nullary main_cst_1 (constant S_ .f32 0x00000000#32),
    binary main_v15 main_cst_1 main_v16 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    nullary main_cst_2 (constant S_ .f32 0x47000000#32),
    unary main_cst_2 main_v17 (broadcastInDim S64 ![] bcast_S_S64 : (⟨S_, .f32⟩ : BufTy).Contents (Elt F) → (⟨S64, .f32⟩ : BufTy).Contents (Elt F)),
    binary main_v16 main_v17 main_v18 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    nullary main_call0_cst (constant S_ .f32 0x00000000#32),
    binary main_v15 main_call0_cst main_call0_v0 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    unary main_call0_v0 main_call0_v1 (broadcastInDim S1x64 ![1] bcast_S64_S1x64_1 : (⟨S64, .f32⟩ : BufTy).Contents (Elt F) → (⟨S1x64, .f32⟩ : BufTy).Contents (Elt F)),
    nullary main_call0_cst_0 (constant S_ .f32 0x47000000#32),
    unary main_call0_cst_0 main_call0_v2 (broadcastInDim S1x64 ![] bcast_S_S1x64 : (⟨S_, .f32⟩ : BufTy).Contents (Elt F) → (⟨S1x64, .f32⟩ : BufTy).Contents (Elt F)),
    binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    unary main_call0_v3 main_call0_v4 (broadcastInDim S32768x64 ![0, 1] bcast_S1x64_S32768x64_0_1 : (⟨S1x64, .f32⟩ : BufTy).Contents (Elt F) → (⟨S32768x64, .f32⟩ : BufTy).Contents (Elt F)),
    binary main_v15 main_call0_v4 main_call0_v5 (subf : (⟨S32768x64, .f32⟩ : BufTy).Contents (Elt F) → (⟨S32768x64, .f32⟩ : BufTy).Contents (Elt F) → (⟨S32768x64, .f32⟩ : BufTy).Contents (Elt F)),
    binary main_call0_v5 main_call0_v5 main_call0_v6 (mulf : (⟨S32768x64, .f32⟩ : BufTy).Contents (Elt F) → (⟨S32768x64, .f32⟩ : BufTy).Contents (Elt F) → (⟨S32768x64, .f32⟩ : BufTy).Contents (Elt F)),
    unary main_c_3 main_call0_v7 (sitofp .f32 : (⟨S_, .i32⟩ : BufTy).Contents (Elt F) → (⟨S_, .f32⟩ : BufTy).Contents (Elt F)),
    nullary main_call0_cst_1 (constant S_ .f32 0x47000000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    unary main_call0_v8 main_call0_v10 (broadcastInDim S64 ![] bcast_S_S64 : (⟨S_, .f32⟩ : BufTy).Contents (Elt F) → (⟨S64, .f32⟩ : BufTy).Contents (Elt F)),
    binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S64 ![] bcast_S_S64 : (⟨S_, .f32⟩ : BufTy).Contents (Elt F) → (⟨S64, .f32⟩ : BufTy).Contents (Elt F)),
    ternary main_call0_v12 main_call0_v11 main_call0_call0_v1 main_v19 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v18 main_v20 (broadcastInDim S1x64 ![1] bcast_S64_S1x64_1 : (⟨S64, .f32⟩ : BufTy).Contents (Elt F) → (⟨S1x64, .f32⟩ : BufTy).Contents (Elt F)),
    unary main_v20 main_v21 (broadcastInDim S32768x64 ![0, 1] bcast_S1x64_S32768x64_0_1 : (⟨S1x64, .f32⟩ : BufTy).Contents (Elt F) → (⟨S32768x64, .f32⟩ : BufTy).Contents (Elt F)),
    binary main_v15 main_v21 main_v22 (subf : (⟨S32768x64, .f32⟩ : BufTy).Contents (Elt F) → (⟨S32768x64, .f32⟩ : BufTy).Contents (Elt F) → (⟨S32768x64, .f32⟩ : BufTy).Contents (Elt F)),
    nullary main_cst_4 (constant S_ .f32 0x3727C5AC#32),
    unary main_cst_4 main_v23 (broadcastInDim S64 ![] bcast_S_S64 : (⟨S_, .f32⟩ : BufTy).Contents (Elt F) → (⟨S64, .f32⟩ : BufTy).Contents (Elt F)),
    binary main_v19 main_v23 main_v24 (addf : (⟨S64, .f32⟩ : BufTy).Contents (Elt F) → (⟨S64, .f32⟩ : BufTy).Contents (Elt F) → (⟨S64, .f32⟩ : BufTy).Contents (Elt F)),
    unary main_v24 main_v25 (Host.rsqrt : (⟨S64, .f32⟩ : BufTy).Contents (Elt F) → (⟨S64, .f32⟩ : BufTy).Contents (Elt F)),
    unary main_v25 main_v26 (broadcastInDim S1x64 ![1] bcast_S64_S1x64_1 : (⟨S64, .f32⟩ : BufTy).Contents (Elt F) → (⟨S1x64, .f32⟩ : BufTy).Contents (Elt F)),
    unary main_v26 main_v27 (broadcastInDim S32768x64 ![0, 1] bcast_S1x64_S32768x64_0_1 : (⟨S1x64, .f32⟩ : BufTy).Contents (Elt F) → (⟨S32768x64, .f32⟩ : BufTy).Contents (Elt F)),
    binary main_v22 main_v27 main_v28 (mulf : (⟨S32768x64, .f32⟩ : BufTy).Contents (Elt F) → (⟨S32768x64, .f32⟩ : BufTy).Contents (Elt F) → (⟨S32768x64, .f32⟩ : BufTy).Contents (Elt F)),
    unary main_arg4 main_v29 (broadcastInDim S1x64 ![1] bcast_S64_S1x64_1 : (⟨S64, .f32⟩ : BufTy).Contents (Elt F) → (⟨S1x64, .f32⟩ : BufTy).Contents (Elt F)),
    unary main_v29 main_v30 (broadcastInDim S32768x64 ![0, 1] bcast_S1x64_S32768x64_0_1 : (⟨S1x64, .f32⟩ : BufTy).Contents (Elt F) → (⟨S32768x64, .f32⟩ : BufTy).Contents (Elt F)),
    binary main_v28 main_v30 main_v31 (mulf : (⟨S32768x64, .f32⟩ : BufTy).Contents (Elt F) → (⟨S32768x64, .f32⟩ : BufTy).Contents (Elt F) → (⟨S32768x64, .f32⟩ : BufTy).Contents (Elt F)),
    unary main_arg5 main_v32 (broadcastInDim S1x64 ![1] bcast_S64_S1x64_1 : (⟨S64, .f32⟩ : BufTy).Contents (Elt F) → (⟨S1x64, .f32⟩ : BufTy).Contents (Elt F)),
    unary main_v32 main_v33 (broadcastInDim S32768x64 ![0, 1] bcast_S1x64_S32768x64_0_1 : (⟨S1x64, .f32⟩ : BufTy).Contents (Elt F) → (⟨S32768x64, .f32⟩ : BufTy).Contents (Elt F)),
    binary main_v31 main_v33 main_v34 (addf : (⟨S32768x64, .f32⟩ : BufTy).Contents (Elt F) → (⟨S32768x64, .f32⟩ : BufTy).Contents (Elt F) → (⟨S32768x64, .f32⟩ : BufTy).Contents (Elt F)),
    reshape main_v34 main_v35 rfl shapeCasts_S32768x64_S8x4096x64 ]

set_option maxRecDepth 4096 in
/-- @main is that straight line. A call means its callee's body over the call's buffers, so with the two bodies put
    at their calls and the sequencing re-associated both sides are one chain of the same steps; an operation stated
    over a typed reference is the operation over the buffer itself, the transport along "the buffer's type is the
    value's type" being the identity at a literal buffer. -/
theorem main_eq (c : Dev nD) : main (F := F) c = seq ops := by
  simp only [main, fn_var.body, fn_where.body, seq, bind_assoc, pure_bind]
  rfl

/-- No buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub ..⟩

/-- The first reshape's result: the pooled array flattened. -/
theorem reshape_v15 (W : Valuation τ sig (Elt F)) :
    (reshape (τ := τ) (Val := Elt F) main_v14 main_v15 rfl shapeCasts_S8x4096x64_S32768x64).result W (no_index (Proc.devRef .tc main_v15))
      = shapeCast S32768x64 (W (Proc.devRef .tc main_v14) : FVec F S8x4096x64 .f32) shapeCasts_S8x4096x64_S32768x64 := by
  rw [reshape_result]; rfl

/-- The last reshape's result: the normalised rows brought back to [8, 4096, 64]. -/
theorem reshape_v35 (W : Valuation τ sig (Elt F)) :
    (reshape (τ := τ) (Val := Elt F) main_v34 main_v35 rfl shapeCasts_S32768x64_S8x4096x64).result W (no_index (Proc.devRef .tc main_v35))
      = shapeCast S8x4096x64 (W (Proc.devRef .tc main_v34) : FVec F S32768x64 .f32) shapeCasts_S32768x64_S8x4096x64 := by
  rw [reshape_result]; rfl

attribute [local irreducible] Host.reduce Host.reduceAdd Host.gather in
set_option maxRecDepth 16384 in
set_option maxHeartbeats 800000 in
/-- What the result buffer holds after the sixty-four operations, from any contents: each operation's value is its
    function of its operands' values and every other buffer keeps what it held, so the fold at the result buffer is
    one composed term over the six argument arrays. With the definitions of the reference's value opened that term is
    the same composition, operation for operation: the linear layer, the start indices, the gather, the subtraction,
    the maximum over the neighbours, and the normalisation's mean, variance, inverse root, scale and shift; the shape
    names differ only by abbreviation and the side conditions are propositions. The reductions and the gather stay
    closed throughout: the equation never looks inside them. -/
theorem out_eq (V : Valuation τ sig (Elt Ideal)) :
    after ops V (main_v35 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp (disch := decide) only [after_cons, after_nil,
      nullary_result', unary_result', binary_result', ternary_result',
      nullary_result_ne', unary_result_ne', binary_result_ne', ternary_result_ne', reshape_result_ne', reshape_v15, reshape_v35]
  unfold refOut Cert.EdgePool.bnTail Cert.EdgePool.normFlat Cert.EdgePool.varOf Cert.EdgePool.meanOf Cert.EdgePool.rows refAgg refH refStart
  rfl

/-- No operation writes argument 0: it keeps its contents. -/
theorem arg0_eq (V : Valuation τ sig (Elt F)) :
    after ops V (main_arg0 : DevRef τ sig) = V (main_arg0 : DevRef τ sig) := by
  simp (disch := decide) only [after_cons, after_nil,
      nullary_result', unary_result', binary_result', ternary_result',
      nullary_result_ne', unary_result_ne', binary_result_ne', ternary_result_ne', reshape_result_ne']

/-- No operation writes argument 1: it keeps its contents. -/
theorem arg1_eq (V : Valuation τ sig (Elt F)) :
    after ops V (main_arg1 : DevRef τ sig) = V (main_arg1 : DevRef τ sig) := by
  simp (disch := decide) only [after_cons, after_nil,
      nullary_result', unary_result', binary_result', ternary_result',
      nullary_result_ne', unary_result_ne', binary_result_ne', ternary_result_ne', reshape_result_ne']

/-- No operation writes argument 2: it keeps its contents. -/
theorem arg2_eq (V : Valuation τ sig (Elt F)) :
    after ops V (main_arg2 : DevRef τ sig) = V (main_arg2 : DevRef τ sig) := by
  simp (disch := decide) only [after_cons, after_nil,
      nullary_result', unary_result', binary_result', ternary_result',
      nullary_result_ne', unary_result_ne', binary_result_ne', ternary_result_ne', reshape_result_ne']

/-- No operation writes argument 3: it keeps its contents. -/
theorem arg3_eq (V : Valuation τ sig (Elt F)) :
    after ops V (main_arg3 : DevRef τ sig) = V (main_arg3 : DevRef τ sig) := by
  simp (disch := decide) only [after_cons, after_nil,
      nullary_result', unary_result', binary_result', ternary_result',
      nullary_result_ne', unary_result_ne', binary_result_ne', ternary_result_ne', reshape_result_ne']

/-- No operation writes argument 4: it keeps its contents. -/
theorem arg4_eq (V : Valuation τ sig (Elt F)) :
    after ops V (main_arg4 : DevRef τ sig) = V (main_arg4 : DevRef τ sig) := by
  simp (disch := decide) only [after_cons, after_nil,
      nullary_result', unary_result', binary_result', ternary_result',
      nullary_result_ne', unary_result_ne', binary_result_ne', ternary_result_ne', reshape_result_ne']

/-- No operation writes argument 5: it keeps its contents. -/
theorem arg5_eq (V : Valuation τ sig (Elt F)) :
    after ops V (main_arg5 : DevRef τ sig) = V (main_arg5 : DevRef τ sig) := by
  simp (disch := decide) only [after_cons, after_nil,
      nullary_result', unary_result', binary_result', ternary_result',
      nullary_result_ne', unary_result_ne', binary_result_ne', ternary_result_ne', reshape_result_ne']

/-- From any memory with zero counters every weakly fair execution of @main on the TensorCores terminates, and every
    TensorCore buffer then holds the operations' fold over what the launch dealt it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference terminates without a fault; the result buffer then holds
    `refOut` of the argument arrays, and the argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v35).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_main m ρ)

end Cert.ReferenceIdeal.RefRun

end
-- ==== Proof.RefValue.lean ====
/-
  The reference's pooled features, read index by index, are the specification's.

  At (b, n, o) the reference takes the maximum, started at −∞, over the 32 neighbours k of the gathered row minus the
  point's own row. The linear layer read at (b, n', o) is Σ_c x[b, n', c] · W[o, c] + bias[o]. On a table in range every
  entry is below 4096, so as a signed word it is not negative: the move up by 4096 is not taken, the signed reading is the
  unsigned one, and the clamp into [0, 4095] changes nothing; the gathered row is row idx[b, n, k] of the same batch. A
  maximum from −∞ over a finite family is its supremum, −∞ being the least extended real.
-/
import proofs.«431289_j61538291417252_2_alg».proof.Proof.RefDefs
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.EdgePool
open Cert.ReferenceIdeal.Facts₀ Cert.ReferenceIdeal.Facts

/-! ## The linear layer at an index -/

/-! The contraction pairs x's last axis with W's last axis: at output (b, n, o) and contraction position c the left
operand is read at (b, n, c) and the right at (o, c). One lemma per operand axis. -/

theorem lhs_axis0 (i : S8x4096x64.Idx) (q : dot_S8x4096x64_S64x64_S8x4096x64_2_1_01_0_n_n.contr.Idx) :
    (dot_S8x4096x64_S64x64_S8x4096x64_2_1_01_0_n_n.lhsIdx i q 0).val = (i 0).val := by
  unfold DotDims.lhsIdx
  rw [dif_neg (show ¬(0 : Fin S8x4096x64.rank) ∈ dot_S8x4096x64_S64x64_S8x4096x64_2_1_01_0_n_n.lhsBatch by decide),
    dif_pos (show (0 : Fin S8x4096x64.rank) ∈ dot_S8x4096x64_S64x64_S8x4096x64_2_1_01_0_n_n.lhsNonContracting by decide)]
  rfl

theorem lhs_axis1 (i : S8x4096x64.Idx) (q : dot_S8x4096x64_S64x64_S8x4096x64_2_1_01_0_n_n.contr.Idx) :
    (dot_S8x4096x64_S64x64_S8x4096x64_2_1_01_0_n_n.lhsIdx i q 1).val = (i 1).val := by
  unfold DotDims.lhsIdx
  rw [dif_neg (show ¬(1 : Fin S8x4096x64.rank) ∈ dot_S8x4096x64_S64x64_S8x4096x64_2_1_01_0_n_n.lhsBatch by decide),
    dif_pos (show (1 : Fin S8x4096x64.rank) ∈ dot_S8x4096x64_S64x64_S8x4096x64_2_1_01_0_n_n.lhsNonContracting by decide)]
  rfl

theorem lhs_axis2 (i : S8x4096x64.Idx) (q : dot_S8x4096x64_S64x64_S8x4096x64_2_1_01_0_n_n.contr.Idx) :
    (dot_S8x4096x64_S64x64_S8x4096x64_2_1_01_0_n_n.lhsIdx i q 2).val = (q ⟨0, by decide⟩).val :=
  dot_S8x4096x64_S64x64_S8x4096x64_2_1_01_0_n_n.lhsIdx_val_of_single rfl i q

theorem rhs_axis0 (i : S8x4096x64.Idx) (q : dot_S8x4096x64_S64x64_S8x4096x64_2_1_01_0_n_n.contr.Idx) :
    (dot_S8x4096x64_S64x64_S8x4096x64_2_1_01_0_n_n.rhsIdx i q 0).val = (i 2).val := by
  unfold DotDims.rhsIdx
  rw [dif_neg (show ¬(0 : Fin S64x64.rank) ∈ dot_S8x4096x64_S64x64_S8x4096x64_2_1_01_0_n_n.rhsBatch by decide),
    dif_pos (show (0 : Fin S64x64.rank) ∈ dot_S8x4096x64_S64x64_S8x4096x64_2_1_01_0_n_n.rhsNonContracting by decide)]
  rfl

theorem rhs_axis1 (i : S8x4096x64.Idx) (q : dot_S8x4096x64_S64x64_S8x4096x64_2_1_01_0_n_n.contr.Idx) :
    (dot_S8x4096x64_S64x64_S8x4096x64_2_1_01_0_n_n.rhsIdx i q 1).val = (q ⟨0, by decide⟩).val :=
  dot_S8x4096x64_S64x64_S8x4096x64_2_1_01_0_n_n.rhsIdx_val_of_single rfl i q

/-- The contraction at (b, n, o): Σ_c x[b, n, c] · W[o, c]. -/
theorem dot_apply (x : FVec Ideal S8x4096x64 .f32) (W : FVec Ideal S64x64 .f32) (b : Fin 8) (n : Fin 4096) (o : Fin 64) :
    Host.dotGeneral (F := Ideal) dot_S8x4096x64_S64x64_S8x4096x64_2_1_01_0_n_n none x W (ix3 b n o)
      = ∑ c : Fin 64, x (ix3 b n c) * W (ix2 o c) := by
  simp only [Host.dotGeneral]
  rw [Ideal.dotGeneral_apply, ← Equiv.sum_comp (contrEquiv1 dot_S8x4096x64_S64x64_S8x4096x64_2_1_01_0_n_n 64 rfl rfl).symm]
  refine Finset.sum_congr rfl fun c _ => ?_
  have hk := contrEquiv1_symm_val dot_S8x4096x64_S64x64_S8x4096x64_2_1_01_0_n_n 64 rfl rfl c
  have el : dot_S8x4096x64_S64x64_S8x4096x64_2_1_01_0_n_n.lhsIdx (ix3 b n o)
      ((contrEquiv1 dot_S8x4096x64_S64x64_S8x4096x64_2_1_01_0_n_n 64 rfl rfl).symm c) = ix3 b n c := funext fun a => Fin.ext (by
    match a with
    | ⟨0, _⟩ => exact lhs_axis0 _ _
    | ⟨1, _⟩ => exact lhs_axis1 _ _
    | ⟨2, _⟩ => exact (lhs_axis2 _ _).trans hk)
  have er : dot_S8x4096x64_S64x64_S8x4096x64_2_1_01_0_n_n.rhsIdx (ix3 b n o)
      ((contrEquiv1 dot_S8x4096x64_S64x64_S8x4096x64_2_1_01_0_n_n 64 rfl rfl).symm c) = ix2 o c := funext fun a => Fin.ext (by
    match a with
    | ⟨0, _⟩ => exact rhs_axis0 _ _
    | ⟨1, _⟩ => exact (rhs_axis1 _ _).trans hk)
  rw [el, er]

/-- The bias spread over batches and points, at (b, n, o): bias[o]. -/
theorem bias_apply (bias : FVec Ideal S64 .f32) (b : Fin 8) (n : Fin 4096) (o : Fin 64) :
    broadcastInDim S8x4096x64 ![0, 1, 2] bcast_S1x1x64_S8x4096x64_0_1_2
      (broadcastInDim S1x1x64 ![2] bcast_S64_S1x1x64_2 bias) (ix3 b n o) = bias (ix1 o) := by
  unfold broadcastInDim
  refine congrArg bias (funext fun a => Fin.ext ?_)
  match a with
  | ⟨0, _⟩ => rfl

/-- The linear layer at (b, n, o). -/
theorem refH_apply (x : FVec Ideal S8x4096x64 .f32) (W : FVec Ideal S64x64 .f32) (bias : FVec Ideal S64 .f32)
    (b : Fin 8) (n : Fin 4096) (o : Fin 64) : refH x W bias (ix3 b n o) = lin x W bias b n o := by
  unfold refH lin
  rw [addf_apply, dot_apply, bias_apply]

/-! ## Words of a table in range -/

/-- A word below 4096 read as a signed integer is its unsigned value. -/
theorem toInt_of_lt (w : BitVec 32) (h : w.toNat < 4096) : w.toInt = (w.toNat : ℤ) := by
  rw [BitVec.toInt_eq_toNat_cond, if_pos (by omega)]

/-- Such a word is not below zero as a signed integer. -/
theorem slt_zero_of_lt (w : BitVec 32) (h : w.toNat < 4096) : IntOp.cmpi .slt w 0#32 = 0#1 := by
  have hs : w.slt 0#32 = false := by
    simp [BitVec.slt, toInt_of_lt w h]
  show BitVec.ofBool (w.slt 0#32) = 0#1
  rw [hs]; rfl

/-- A start index read signed and clamped into the row range [0, 4095]. -/
def clampRow (w : BitVec 32) : Fin 4096 := ⟨min w.toInt.toNat 4095, by omega⟩

/-- The clamp leaves a word below 4096 where it is. -/
theorem clampRow_of_lt (w : BitVec 32) (h : w.toNat < 4096) : (clampRow w).val = w.toNat := by
  show min w.toInt.toNat 4095 = w.toNat
  rw [toInt_of_lt w h, Int.toNat_natCast]
  omega

/-! ## The start indices at an index -/

/-- On a table in range the start index at (b, n, k, 0) is the table's entry at (b, n, k). -/
theorem refStart_apply (idx : IVec S8x4096x32 32) (hidx : InRange idx) (b : Fin 8) (n : Fin 4096) (k : Fin 32) (z : Fin 1) :
    refStart idx (ix4 b n k z) = idx (ix3 b n k) := by
  unfold refStart
  have hI : ∀ v : IVec S8x4096x32 32,
      broadcastInDim S8x4096x32x1 ![0, 1, 2] bcast_S8x4096x32_S8x4096x32x1_0_1_2 v (ix4 b n k z) = v (ix3 b n k) := fun v => by
    unfold broadcastInDim
    refine congrArg v (funext fun a => Fin.ext ?_)
    match a with
    | ⟨0, _⟩ => rfl
    | ⟨1, _⟩ => rfl
    | ⟨2, _⟩ => rfl
  rw [hI, select_apply]
  have hc : cmpi .slt idx (broadcastInDim S8x4096x32 ![] bcast_S_S8x4096x32 (constantI S_ 32 0#32)) (ix3 b n k) = 0#1 :=
    slt_zero_of_lt _ (hidx _)
  rw [hc, select_zero]

/-! ## The gather at an index -/

/-- The start-indices index (b, n, k, 0) at which result index (b, n, k, o) reads its one start component. -/
theorem gather_siIdx (b : Fin 8) (n : Fin 4096) (k : Fin 32) (o : Fin 64)
    (c : Fin gather_S8x4096x64_S8x4096x32x1_S8x4096x32x64_3_1_0_0_1_3_1164.startIndexMap.length) :
    gather_S8x4096x64_S8x4096x32x1_S8x4096x32x64_3_1_0_0_1_3_1164.siIdx (ix4 b n k o) c = ix4 b n k (0 : Fin 1) := by
  funext a; refine Fin.ext ?_
  match a with
  | ⟨0, _⟩ => rfl
  | ⟨1, _⟩ => rfl
  | ⟨2, _⟩ => rfl
  | ⟨3, _⟩ =>
    show c.val = 0
    have := c.isLt
    have hl : gather_S8x4096x64_S8x4096x32x1_S8x4096x32x64_3_1_0_0_1_3_1164.startIndexMap.length = 1 := rfl
    omega

/-- Axis 0 of the operand index: the batch. -/
theorem gather_axis0 (st : IVec S8x4096x32x1 32) (b : Fin 8) (n : Fin 4096) (k : Fin 32) (o : Fin 64) :
    (gather_S8x4096x64_S8x4096x32x1_S8x4096x32x64_3_1_0_0_1_3_1164.operandIdx (ix4 b n k o) st 0).val = b.val := by
  show gather_S8x4096x64_S8x4096x32x1_S8x4096x32x64_3_1_0_0_1_3_1164.start (ix4 b n k o) st 0
    + gather_S8x4096x64_S8x4096x32x1_S8x4096x32x64_3_1_0_0_1_3_1164.batchCoord (ix4 b n k o) 0
    + gather_S8x4096x64_S8x4096x32x1_S8x4096x32x64_3_1_0_0_1_3_1164.offCoord (ix4 b n k o) 0 = b.val
  rw [GatherDims.start_batching _ _ _ _ (by decide), GatherDims.offCoord_eq_zero _ _ _ (by decide)]
  unfold GatherDims.batchCoord
  rw [dif_pos (show (0 : Fin S8x4096x64.rank) ∈ gather_S8x4096x64_S8x4096x32x1_S8x4096x32x64_3_1_0_0_1_3_1164.operandBatchingDims by decide)]
  show 0 + b.val + 0 = b.val
  omega

/-- Axis 1 of the operand index: the start index at (b, n, k, 0), read signed and clamped. -/
theorem gather_axis1 (st : IVec S8x4096x32x1 32) (b : Fin 8) (n : Fin 4096) (k : Fin 32) (o : Fin 64) :
    (gather_S8x4096x64_S8x4096x32x1_S8x4096x32x64_3_1_0_0_1_3_1164.operandIdx (ix4 b n k o) st 1).val
      = (clampRow (st (ix4 b n k (0 : Fin 1)))).val := by
  show gather_S8x4096x64_S8x4096x32x1_S8x4096x32x64_3_1_0_0_1_3_1164.start (ix4 b n k o) st 1
    + gather_S8x4096x64_S8x4096x32x1_S8x4096x32x64_3_1_0_0_1_3_1164.batchCoord (ix4 b n k o) 1
    + gather_S8x4096x64_S8x4096x32x1_S8x4096x32x64_3_1_0_0_1_3_1164.offCoord (ix4 b n k o) 1 = _
  rw [GatherDims.batchCoord_eq_zero _ _ _ (by decide), GatherDims.offCoord_eq_zero _ _ _ (by decide)]
  unfold GatherDims.start
  rw [dif_pos (show (1 : Fin S8x4096x64.rank) ∈ gather_S8x4096x64_S8x4096x32x1_S8x4096x32x64_3_1_0_0_1_3_1164.startIndexMap by decide),
    gather_siIdx]
  rfl

/-- Axis 2 of the operand index: the feature. -/
theorem gather_axis2 (st : IVec S8x4096x32x1 32) (b : Fin 8) (n : Fin 4096) (k : Fin 32) (o : Fin 64) :
    (gather_S8x4096x64_S8x4096x32x1_S8x4096x32x64_3_1_0_0_1_3_1164.operandIdx (ix4 b n k o) st 2).val = o.val := by
  show gather_S8x4096x64_S8x4096x32x1_S8x4096x32x64_3_1_0_0_1_3_1164.start (ix4 b n k o) st 2
    + gather_S8x4096x64_S8x4096x32x1_S8x4096x32x64_3_1_0_0_1_3_1164.batchCoord (ix4 b n k o) 2
    + gather_S8x4096x64_S8x4096x32x1_S8x4096x32x64_3_1_0_0_1_3_1164.offCoord (ix4 b n k o) 2 = o.val
  rw [GatherDims.batchCoord_eq_zero _ _ _ (by decide)]
  unfold GatherDims.start GatherDims.offCoord
  rw [dif_neg (show ¬(2 : Fin S8x4096x64.rank) ∈ gather_S8x4096x64_S8x4096x32x1_S8x4096x32x64_3_1_0_0_1_3_1164.startIndexMap by decide),
    dif_pos (show (2 : Fin S8x4096x64.rank) ∈ gather_S8x4096x64_S8x4096x32x1_S8x4096x32x64_3_1_0_0_1_3_1164.sKept by decide)]
  show 0 + 0 + o.val = o.val
  omega

/-- The gather at (b, n, k, o): the operand's row picked by the clamped start index, in the same batch, at feature o. -/
theorem gather_apply {α : Type} (h : S8x4096x64.Idx → α) (st : IVec S8x4096x32x1 32) (b : Fin 8) (n : Fin 4096) (k : Fin 32) (o : Fin 64) :
    Host.gather gather_S8x4096x64_S8x4096x32x1_S8x4096x32x64_3_1_0_0_1_3_1164 h st (ix4 b n k o)
      = h (ix3 b (clampRow (st (ix4 b n k (0 : Fin 1)))) o) := by
  unfold Host.gather
  refine congrArg h (funext fun a => Fin.ext ?_)
  match a with
  | ⟨0, _⟩ => exact gather_axis0 st b n k o
  | ⟨1, _⟩ => exact gather_axis1 st b n k o
  | ⟨2, _⟩ => exact gather_axis2 st b n k o

/-! ## The point's own row spread over its neighbours -/

/-- The table spread over the neighbour axis, at (b, n, k, o): its entry at (b, n, o). -/
theorem own_apply {α : Type} (h : S8x4096x64.Idx → α) (b : Fin 8) (n : Fin 4096) (k : Fin 32) (o : Fin 64) :
    broadcastInDim S8x4096x32x64 ![0, 1, 2, 3] bcast_S8x4096x1x64_S8x4096x32x64_0_1_2_3
      (broadcastInDim S8x4096x1x64 ![0, 1, 3] bcast_S8x4096x64_S8x4096x1x64_0_1_3 h) (ix4 b n k o) = h (ix3 b n o) := by
  unfold broadcastInDim
  refine congrArg h (funext fun a => Fin.ext ?_)
  match a with
  | ⟨0, _⟩ => rfl
  | ⟨1, _⟩ => rfl
  | ⟨2, _⟩ => rfl

/-! ## One edge feature -/

/-- On a table in range, the array under the maximum at (b, n, k, o) is the edge feature of neighbour k. -/
theorem edge_apply (x : FVec Ideal S8x4096x64 .f32) (idx : IVec S8x4096x32 32) (W : FVec Ideal S64x64 .f32) (bias : FVec Ideal S64 .f32)
    (hidx : InRange idx) (b : Fin 8) (n : Fin 4096) (k : Fin 32) (o : Fin 64) :
    subf
      (Host.gather gather_S8x4096x64_S8x4096x32x1_S8x4096x32x64_3_1_0_0_1_3_1164 (refH x W bias) (refStart idx))
      (broadcastInDim S8x4096x32x64 ![0, 1, 2, 3] bcast_S8x4096x1x64_S8x4096x32x64_0_1_2_3
        (broadcastInDim S8x4096x1x64 ![0, 1, 3] bcast_S8x4096x64_S8x4096x1x64_0_1_3 (refH x W bias))) (ix4 b n k o)
      = edgeOf (lin x W bias) idx b n o k := by
  rw [subf_apply, gather_apply, own_apply, refStart_apply idx hidx]
  have hrow : clampRow (idx (ix3 b n k)) = nbr idx b n k :=
    Fin.ext ((clampRow_of_lt _ (hidx _)).trans (nbr_val idx hidx b n k).symm)
  rw [hrow, refH_apply, refH_apply]
  rfl

/-! ## The maximum over the neighbour axis -/

/-- The pooled index (b, n, o) with neighbour k put back on the dropped axis is (b, n, k, o). -/
theorem lift_ix3 (h : S8x4096x32x64.Reduces [2] S8x4096x64) (b : Fin 8) (n : Fin 4096) (o : Fin 64)
    (k : Fin (S8x4096x32x64.size 2)) : h.lift (ix3 b n o) k = ix4 b n (⟨k.val, k.isLt⟩ : Fin 32) o := by
  funext c; apply Fin.ext
  fin_cases c <;> rfl

/-- A running maximum from −∞ over a family of 32 extended reals is the family's supremum. -/
theorem fold_max_eq_sup (f : Fin 32 → EReal) :
    (Finset.univ : Finset (Fin 32)).fold (FloatOps.maximumf (F := Ideal) (φ := .f32)) (Ideal.ofBits .f32 0xFF800000#32) f
      = Finset.univ.sup f := by
  have hb : Ideal.ofBits .f32 0xFF800000#32 = (⊥ : EReal) := by simp [Ideal.ofBits, Ideal.ieee]
  rw [hb]
  rfl

/-- On a neighbour table in range the reference's pooled array is `pooled` of its arguments. -/
theorem refAgg_eq (x : FVec Ideal S8x4096x64 .f32) (idx : IVec S8x4096x32 32) (W : FVec Ideal S64x64 .f32) (bias : FVec Ideal S64 .f32)
    (hidx : InRange idx) : refAgg x idx W bias = pooled x W bias idx := by
  funext j
  obtain ⟨b, n, o, rfl⟩ : ∃ (b : Fin 8) (n : Fin 4096) (o : Fin 64), j = ix3 b n o := ⟨j 0, j 1, j 2, eq_ix3 j⟩
  have hR : S8x4096x32x64.Reduces [2] S8x4096x64 := by decide
  unfold refAgg
  refine (Host.reduce_eq_fold_single FloatOps.maximumf _ _ reducesTo_S8x4096x32x64_S8x4096x64_d2 hR h_S_ (ix3 b n o)).trans ?_
  have hf : ∀ X : FVec Ideal S8x4096x32x64 .f32, (X ∘ hR.lift (ix3 b n o)) = fun k : Fin 32 => X (ix4 b n k o) := fun X =>
    funext fun k => congrArg X (lift_ix3 hR b n o k)
  rw [hf]
  refine (fold_max_eq_sup _).trans ?_
  show Finset.univ.sup _ = Finset.univ.sup (edgeOf (lin x W bias) idx b n o)
  exact congrArg (Finset.sup Finset.univ) (funext fun k => edge_apply x idx W bias hidx b n k o)

end Cert.ReferenceIdeal.RefValue

end
-- ==== Proof.PreRange.lean ====
/-
  The precondition's two integer conjuncts, decoded: every entry of the neighbour table is a row number.
-/
import proofs.«431289_j61538291417252_2_alg».proof.Proof.Gen.Pre_finite_inputs
import proofs.«431289_j61538291417252_2_alg».proof.Proof.Spec
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs Cert.EdgePool

/-- A 32-bit word that is at least 0 and below 4096 in the signed order is below 4096 as an unsigned number:
    a nonnegative signed reading has the top bit clear, so the two readings agree. -/
theorem toNat_lt_of_signed_range (w : BitVec 32) (hge : IntOp.cmpi .sge w 0#32 = 1#1)
    (hlt : IntOp.cmpi .slt w 4096#32 = 1#1) : w.toNat < 4096 := by
  unfold IntOp.cmpi at hge hlt
  rw [StableHlo.Predicate.ofBool_eq_one_iff] at hge hlt
  have z : (0#32 : BitVec 32).toInt = 0 := by decide
  have f : (4096#32 : BitVec 32).toInt = 4096 := by decide
  simp only [BitVec.sle, BitVec.slt, decide_eq_true_eq, z, f] at hge hlt
  rw [BitVec.toInt_eq_toNat_cond] at hge hlt
  have hw := w.isLt
  by_cases c : 2 * w.toNat < 2 ^ 32
  · rw [if_pos c] at hlt; omega
  · rw [if_neg c] at hge; omega

/-- If the printed precondition evaluates to true, the neighbour table is in range. -/
theorem inRange_of_pre (x : FVec Ideal S8x4096x64 .f32) (idx : IVec S8x4096x32 32) (W : FVec Ideal S64x64 .f32)
    (bias γ β : FVec Ideal S64 .f32) (h : Cert.Pre_finite_inputs.fn (F := Ideal) x idx W bias γ β = (fun _ => 1#1)) :
    InRange idx := by
  have h0 := congrFun h ValueIdx.ix0
  dsimp only [fn, fn_part1] at h0
  -- the value at the one index is a conjunction: (… ∧ every entry ≥ 0) ∧ every entry < 4096
  obtain ⟨h27, h30⟩ := IntOp.andi_eq_one.1 h0
  obtain ⟨_, h26⟩ := IntOp.andi_eq_one.1 h27
  intro j
  -- the scalar shape has one index, so each conjunction over all entries that holds, holds at entry j
  haveI : Subsingleton S_.Idx := ⟨fun a b => funext fun d => d.elim0⟩
  have hge := Host.reduce_andi_all _ _ _ _ _ h26 j
  have hlt := Host.reduce_andi_all _ _ _ _ _ h30 j
  exact toNat_lt_of_signed_range (idx j) hge hlt

end Cert.Pre_finite_inputs.Range

end
-- ==== Proof.KDefs.lean ====
/-
  The kernel body's arithmetic, named. At a grid point (b, r) the body reads the whole table T of batch b from
  its scratch (4096 rows of 64 features), the 128 rows Q of that table that belong to the point's block
  (rows 128·r … 128·r + 127), and the block I of the neighbour table (128 points, 32 neighbours each), and
  stores one block of pooled features: `poolBlock T Q I`, the body's thirty-two unrolled neighbour steps
  composed as the run composes them. At the first point of a batch the table is first computed from the
  batch's points, the transposed weights and the bias (`k0_pay2`).
-/
import proofs.«431289_j61538291417252_2_alg».proof.Proof.Gen.KernelIdeal.Skeleton
import proofs.«431289_j61538291417252_2_alg».proof.Proof.Tail
import Idealize.ShloMosaic.Lib.ValueIdx

noncomputable section

namespace Cert.KernelIdeal.KVal

open Idealize.ShloMosaic Idealize.ShloMosaic.ValueIdx Idealize.SL.Sem Cert.KernelIdeal Cert.KernelIdeal.Gen

variable {F : FTy → Type} [FloatOps F]

/-- The column numbers 0 … 4095 along each of the 128 rows. -/
abbrev colIota : IVec S128x4096 32 := iota .tc S128x4096 32 [1] iota_S128x4096_d1_w32

/-- One block of pooled features from the table, the block's own rows and the block's neighbour indices:
    the body's payloads composed as its run composes them (neighbours 0–2, then 3–8, 9–14, 15–20, 21–26,
    27–31; each later stretch takes the running maximum and the next neighbour's indicator words). -/
def poolBlock (T : Vec F S4096x64 .bf16) (Q : Vec F S128x64 .bf16) (I : Vec F S1x128x32 .i32) : FVec F S1x128x64 .f32 :=
  k0_pay1 T (k0_pay3 Q) (k0_pay4 I) colIota
    (k0_pay13 T (k0_pay3 Q) (k0_pay4 I) colIota
      (k0_pay11 T (k0_pay3 Q) (k0_pay4 I) colIota
        (k0_pay9 T (k0_pay3 Q) (k0_pay4 I) colIota
          (k0_pay7 T (k0_pay3 Q) (k0_pay4 I) colIota (k0_pay5 T Q I) (k0_pay6 I))
          (k0_pay8 (k0_pay4 I) colIota))
        (k0_pay10 (k0_pay4 I) colIota))
      (k0_pay12 (k0_pay4 I) colIota))
    (k0_pay14 (k0_pay4 I) colIota)

/-- Rows 128·r … 128·r + 127 of a table of 4096 rows. -/
def rowsAt (T : Vec F S4096x64 .bf16) (r : ℕ) (hr : r < 32) : Vec F S128x64 .bf16 :=
  fun y => T (ix2 (⟨128 * r + (y 0).val, by have := idx2_lt0 y; omega⟩ : Fin 4096) (y 1))

end Cert.KernelIdeal.KVal

end
-- ==== Proof.KPay.lean ====
/-
  The kernel body's arithmetic read at an index, over the extended reals.
-/
import proofs.«431289_j61538291417252_2_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Idealize.SL.Sem Cert.KernelIdeal Cert.KernelIdeal.Gen Cert.EdgePool

/-! ## The linear layer's product: operand indices, axis by axis -/

theorem lhs_lin_0 (j : S4096x64.Idx) (k : dot_S4096x64_S64x64_S4096x64_1_0_0_1_n_n.contr.Idx) :
    (dot_S4096x64_S64x64_S4096x64_1_0_0_1_n_n.lhsIdx j k 0).val = (j 0).val := rfl

theorem lhs_lin_1 (j : S4096x64.Idx) (k : dot_S4096x64_S64x64_S4096x64_1_0_0_1_n_n.contr.Idx) :
    (dot_S4096x64_S64x64_S4096x64_1_0_0_1_n_n.lhsIdx j k 1).val = (k ⟨0, by decide⟩).val :=
  DotDims.lhsIdx_val_of_single _ rfl j k

theorem rhs_lin_0 (j : S4096x64.Idx) (k : dot_S4096x64_S64x64_S4096x64_1_0_0_1_n_n.contr.Idx) :
    (dot_S4096x64_S64x64_S4096x64_1_0_0_1_n_n.rhsIdx j k 0).val = (k ⟨0, by decide⟩).val :=
  DotDims.rhsIdx_val_of_single _ rfl j k

theorem rhs_lin_1 (j : S4096x64.Idx) (k : dot_S4096x64_S64x64_S4096x64_1_0_0_1_n_n.contr.Idx) :
    (dot_S4096x64_S64x64_S4096x64_1_0_0_1_n_n.rhsIdx j k 1).val = (j 1).val := rfl

/-- The product into the zero accumulator at (n, o): Σ_c A[n, c] · W[c, o], the contraction index read as its one
    coordinate. -/
theorem lin_matmul_apply (A : FVec Ideal S4096x64 .bf16) (W : FVec Ideal S64x64 .bf16) (n : Fin 4096) (o : Fin 64) :
    matmul dot_S4096x64_S64x64_S4096x64_1_0_0_1_n_n none A W (constant S4096x64 .f32 0x00000000#32) (ix2 n o)
      = ∑ c : Fin 64, A (ix2 n c) * W (ix2 c o) := by
  refine (Ideal.matmul_constant_zero_apply dot_S4096x64_S64x64_S4096x64_1_0_0_1_n_n none A W (ix2 n o)).trans ?_
  refine (Equiv.sum_comp (contrEquiv1 dot_S4096x64_S64x64_S4096x64_1_0_0_1_n_n 64 rfl rfl).symm _).symm.trans ?_
  refine Finset.sum_congr rfl fun c _ => ?_
  have hc := contrEquiv1_symm_val dot_S4096x64_S64x64_S4096x64_1_0_0_1_n_n 64 rfl rfl c
  have hl : dot_S4096x64_S64x64_S4096x64_1_0_0_1_n_n.lhsIdx (ix2 n o)
      ((contrEquiv1 dot_S4096x64_S64x64_S4096x64_1_0_0_1_n_n 64 rfl rfl).symm c) = ix2 n c :=
    Shape.idx_ext₂ (lhs_lin_0 _ _) ((lhs_lin_1 _ _).trans hc)
  have hr : dot_S4096x64_S64x64_S4096x64_1_0_0_1_n_n.rhsIdx (ix2 n o)
      ((contrEquiv1 dot_S4096x64_S64x64_S4096x64_1_0_0_1_n_n 64 rfl rfl).symm c) = ix2 c o :=
    Shape.idx_ext₂ ((rhs_lin_0 _ _).trans hc) (rhs_lin_1 _ _)
  rw [hl, hr]

/-- The table a batch's first point computes, at (n, o): Σ_c X[0, n, c] · Wt[c, o] + B[o]. -/
theorem linBlock_apply (X : FVec Ideal S1x4096x64 .bf16) (Wt : FVec Ideal S64x64 .bf16) (B : FVec Ideal S64 .f32)
    (n : Fin 4096) (o : Fin 64) :
    k0_pay2 (F := Ideal) X Wt B (ix2 n o) = (∑ c : Fin 64, X (ix3 (0 : Fin 1) n c) * Wt (ix2 c o)) + B (ix1 o) := by
  unfold k0_pay2
  rw [shapeCast_self, shapeCast_self Wt]
  refine (truncf_apply (φ := .f32) (ψ := .bf16) _ bitsLt_bf16_f32 (ix2 n o)).trans ?_
  refine (addf_apply (φ := .f32) _ _ (ix2 n o)).trans ?_
  refine congrArg₂ (· + ·) ?_ ?_
  · refine (lin_matmul_apply _ Wt n o).trans ?_
    refine Finset.sum_congr rfl fun c _ => ?_
    rw [shapeCast_1ab_ab_apply]
  · refine (broadcastTo_1b_ab_apply _ _ n o).trans ?_
    exact shapeCast_a_1a_apply B _ 0 o

/-! ## The pooling product: operand indices, axis by axis -/

theorem lhs_pool_0 (j : S128x64.Idx) (k : dot_S128x4096_S4096x64_S128x64_1_0_0_1_n_n.contr.Idx) :
    (dot_S128x4096_S4096x64_S128x64_1_0_0_1_n_n.lhsIdx j k 0).val = (j 0).val := rfl

theorem lhs_pool_1 (j : S128x64.Idx) (k : dot_S128x4096_S4096x64_S128x64_1_0_0_1_n_n.contr.Idx) :
    (dot_S128x4096_S4096x64_S128x64_1_0_0_1_n_n.lhsIdx j k 1).val = (k ⟨0, by decide⟩).val :=
  DotDims.lhsIdx_val_of_single _ rfl j k

theorem rhs_pool_0 (j : S128x64.Idx) (k : dot_S128x4096_S4096x64_S128x64_1_0_0_1_n_n.contr.Idx) :
    (dot_S128x4096_S4096x64_S128x64_1_0_0_1_n_n.rhsIdx j k 0).val = (k ⟨0, by decide⟩).val :=
  DotDims.rhsIdx_val_of_single _ rfl j k

theorem rhs_pool_1 (j : S128x64.Idx) (k : dot_S128x4096_S4096x64_S128x64_1_0_0_1_n_n.contr.Idx) :
    (dot_S128x4096_S4096x64_S128x64_1_0_0_1_n_n.rhsIdx j k 1).val = (j 1).val := rfl

/-- The product into the zero accumulator at (p, q): Σ_j L[p, j] · T[j, q] over the 4096 rows of the table. -/
theorem pool_matmul_apply (L : FVec Ideal S128x4096 .bf16) (T : FVec Ideal S4096x64 .bf16) (p : Fin 128) (q : Fin 64) :
    matmul dot_S128x4096_S4096x64_S128x64_1_0_0_1_n_n none L T (constant S128x64 .f32 0x00000000#32) (ix2 p q)
      = ∑ j : Fin 4096, L (ix2 p j) * T (ix2 j q) := by
  refine (Ideal.matmul_constant_zero_apply dot_S128x4096_S4096x64_S128x64_1_0_0_1_n_n none L T (ix2 p q)).trans ?_
  refine (Equiv.sum_comp (contrEquiv1 dot_S128x4096_S4096x64_S128x64_1_0_0_1_n_n 4096 rfl rfl).symm _).symm.trans ?_
  refine Finset.sum_congr rfl fun j _ => ?_
  have hj := contrEquiv1_symm_val dot_S128x4096_S4096x64_S128x64_1_0_0_1_n_n 4096 rfl rfl j
  have hl : dot_S128x4096_S4096x64_S128x64_1_0_0_1_n_n.lhsIdx (ix2 p q)
      ((contrEquiv1 dot_S128x4096_S4096x64_S128x64_1_0_0_1_n_n 4096 rfl rfl).symm j) = ix2 p j :=
    Shape.idx_ext₂ (lhs_pool_0 _ _) ((lhs_pool_1 _ _).trans hj)
  have hr : dot_S128x4096_S4096x64_S128x64_1_0_0_1_n_n.rhsIdx (ix2 p q)
      ((contrEquiv1 dot_S128x4096_S4096x64_S128x64_1_0_0_1_n_n 4096 rfl rfl).symm j) = ix2 j q :=
    Shape.idx_ext₂ ((rhs_pool_0 _ _).trans hj) (rhs_pool_1 _ _)
  rw [hl, hr]

/-! ## One neighbour step -/

/-- The indicator words of a column of row numbers against the column numbers: at (p, j) the word 1 when the
    number in row p of the column is j, else the word 0. -/
abbrev wordsOf (cols : IVec S128x4096 32) (col : IVec S128x1 32) : IVec S128x4096 32 :=
  extui 32 (cmpi .eq cols (broadcastTo S128x4096 col broadcasts_S128x1_S128x4096)) natLt_1_32

/-- One step of the running maximum: the rows of the table picked by the indicator words, less the block's own
    rows, against what there was. -/
abbrev stepW (T : FVec Ideal S4096x64 .bf16) (Qf acc : FVec Ideal S128x64 .f32) (w : IVec S128x4096 32) :
    FVec Ideal S128x64 .f32 :=
  maximumf acc (subf (matmul dot_S128x4096_S4096x64_S128x64_1_0_0_1_n_n none
    (truncf .bf16 (sitofp .f32 w) bitsLt_bf16_f32) T (constant S128x64 .f32 0x00000000#32)) Qf)

/-- A one-bit comparison for equality is the bit 1 exactly when the words are equal. -/
theorem cmpi_eq_one_iff {w : Nat} (a b : BitVec w) : IntOp.cmpi .eq a b = 1#1 ↔ a = b := by
  show BitVec.ofBool (a == b) = 1#1 ↔ a = b
  rw [← beq_iff_eq (a := a) (b := b)]
  generalize (a == b) = c
  cases c <;> decide

/-- The indicator words at (p, j), when row p of the column holds the row number i: 1 at j = i, else 0. -/
theorem wordsOf_apply (col : IVec S128x1 32) (p : Fin 128) (i : Fin 4096)
    (hi : (col (ix2 p (0 : Fin 1))).toNat = i.val) (j : Fin 4096) :
    wordsOf colIota col (ix2 p j) = if j = i then 1#32 else 0#32 := by
  have hb : broadcastTo S128x4096 col broadcasts_S128x1_S128x4096 (ix2 p j) = col (ix2 p (0 : Fin 1)) :=
    broadcastTo_apply col _ (ix2 p j) (ix2 p (0 : Fin 1)) fun ax => by
      match ax with
      | ⟨0, _⟩ => rfl
      | ⟨1, _⟩ => rfl
  have hio : colIota (ix2 p j) = BitVec.ofNat 32 j.val :=
    iota_single_apply .tc S128x4096 32 1 iota_S128x4096_d1_w32 (ix2 p j)
  show (IntOp.cmpi .eq (colIota (ix2 p j)) (broadcastTo S128x4096 col broadcasts_S128x1_S128x4096 (ix2 p j))).setWidth 32 = _
  rw [hb, hio]
  by_cases hji : j = i
  · have h1 : IntOp.cmpi .eq (BitVec.ofNat 32 j.val) (col (ix2 p (0 : Fin 1))) = 1#1 :=
      (cmpi_eq_one_iff _ _).mpr (BitVec.eq_of_toNat_eq (by
        rw [hi, hji, BitVec.toNat_ofNat]
        have := i.isLt
        omega))
    rw [h1, if_pos hji]
    decide
  · have h0 : ¬ IntOp.cmpi .eq (BitVec.ofNat 32 j.val) (col (ix2 p (0 : Fin 1))) = 1#1 := fun h => hji (by
      have ht := congrArg BitVec.toNat ((cmpi_eq_one_iff _ _).mp h)
      rw [hi, BitVec.toNat_ofNat] at ht
      exact Fin.ext (by have := j.isLt; omega))
    rw [eq_zero_of_ne_one h0, if_neg hji]
    decide

/-- One step at (p, q), when the step's words are the indicator of row number i in row p: the larger of what
    there was and T[i, q] − Qf[p, q]. The product picks row i of the table because every other term is 0 · T[j, q]. -/
theorem stepW_apply (T : FVec Ideal S4096x64 .bf16) (Qf acc : FVec Ideal S128x64 .f32) (w : IVec S128x4096 32)
    (p : Fin 128) (q : Fin 64) (i : Fin 4096) (hw : ∀ j : Fin 4096, w (ix2 p j) = if j = i then 1#32 else 0#32) :
    stepW T Qf acc w (ix2 p q) = max (acc (ix2 p q)) (T (ix2 i q) - Qf (ix2 p q)) := by
  show max (acc (ix2 p q)) (matmul dot_S128x4096_S4096x64_S128x64_1_0_0_1_n_n none
    (truncf .bf16 (sitofp (F := Ideal) .f32 w) bitsLt_bf16_f32) T (constant S128x64 .f32 0x00000000#32) (ix2 p q) - Qf (ix2 p q)) = _
  rw [pool_matmul_apply]
  have hL : ∀ j : Fin 4096, (truncf .bf16 (sitofp (F := Ideal) .f32 w) bitsLt_bf16_f32 : FVec Ideal S128x4096 .bf16) (ix2 p j)
      = if j = i then (1 : EReal) else 0 := fun j => by
    show (((w (ix2 p j)).toInt : ℝ) : EReal) = _
    rw [hw j]
    by_cases hji : j = i
    · rw [if_pos hji, if_pos hji]; simp
    · rw [if_neg hji, if_neg hji]; simp
  rw [Finset.sum_congr rfl fun j _ => by rw [hL j]]
  rw [indicator_sum (fun j : Fin 4096 => T (ix2 j q)) i]

/-! ## The running maximum through the thirty-two neighbours -/

/-- The edge features of point p of the block at feature q, neighbour by neighbour: T[I[p, k], q] − Q[p, q]. -/
def edge (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64) :
    Fin 32 → EReal :=
  fun k => T (ix2 (⟨(I (ix3 (0 : Fin 1) p k)).toNat, hI p k⟩ : Fin 4096) q) - Q (ix2 p q)

/-- Neighbour n's step takes the supremum of the first n edge features to that of the first n + 1: column n of the
    neighbour table holds, in row p, the row number I[p, n]; the step's product picks that row of the table. -/
theorem nbrStep_supTo (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (n : ℕ) (hn : n < 32) (h : S128x32.Slices ![0, n] S128x1)
    (hacc : acc (ix2 p q) = supTo (edge T Q I hI p q) n) :
    stepW T (k0_pay3 Q) acc (wordsOf colIota (extractStridedSlice S128x1 ![0, n] (k0_pay4 (F := Ideal) I) h)) (ix2 p q)
      = supTo (edge T Q I hI p q) (n + 1) := by
  have hcol : (extractStridedSlice S128x1 ![0, n] (k0_pay4 (F := Ideal) I) h (ix2 p (0 : Fin 1))).toNat
      = (⟨(I (ix3 (0 : Fin 1) p ⟨n, hn⟩)).toNat, hI p ⟨n, hn⟩⟩ : Fin 4096).val := by
    rw [slice2_axis1_apply n (k0_pay4 (F := Ideal) I) h p (0 : Fin 1) (⟨n, hn⟩ : Fin 32) rfl]
    unfold k0_pay4
    rw [shapeCast_1ab_ab_apply]
  rw [stepW_apply T (k0_pay3 Q) acc _ p q _ (wordsOf_apply _ p _ hcol), supTo_succ _ n hn, hacc]
  rfl

/-- Neighbours 0, 1, 2 from −∞. -/
theorem pay5_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64) :
    k0_pay5 (F := Ideal) T Q I (ix2 p q) = supTo (edge T Q I hI p q) 3 := by
  unfold k0_pay5
  refine nbrStep_supTo T Q I hI p q _ 2 (by decide) _ ?_
  refine nbrStep_supTo T Q I hI p q _ 1 (by decide) _ ?_
  refine nbrStep_supTo T Q I hI p q _ 0 (by decide) _ ?_
  rw [supTo_zero]
  show Ideal.ofBits .f32 0xFF800000#32 = ⊥
  simp [Ideal.ofBits, Ideal.ieee]

/-- Neighbours 3 to 8. -/
theorem pay7_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (hacc : acc (ix2 p q) = supTo (edge T Q I hI p q) 3) :
    k0_pay7 (F := Ideal) T (k0_pay3 Q) (k0_pay4 (F := Ideal) I) colIota acc (k0_pay6 (F := Ideal) I) (ix2 p q)
      = supTo (edge T Q I hI p q) 9 := by
  unfold k0_pay7 k0_pay6
  refine nbrStep_supTo T Q I hI p q _ 8 (by decide) _ ?_
  refine nbrStep_supTo T Q I hI p q _ 7 (by decide) _ ?_
  refine nbrStep_supTo T Q I hI p q _ 6 (by decide) _ ?_
  refine nbrStep_supTo T Q I hI p q _ 5 (by decide) _ ?_
  refine nbrStep_supTo T Q I hI p q _ 4 (by decide) _ ?_
  refine nbrStep_supTo T Q I hI p q _ 3 (by decide) _ ?_
  exact hacc

/-- Neighbours 9 to 14. -/
theorem pay9_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (hacc : acc (ix2 p q) = supTo (edge T Q I hI p q) 9) :
    k0_pay9 (F := Ideal) T (k0_pay3 Q) (k0_pay4 (F := Ideal) I) colIota acc (k0_pay8 (k0_pay4 (F := Ideal) I) colIota) (ix2 p q)
      = supTo (edge T Q I hI p q) 15 := by
  unfold k0_pay9 k0_pay8
  refine nbrStep_supTo T Q I hI p q _ 14 (by decide) _ ?_
  refine nbrStep_supTo T Q I hI p q _ 13 (by decide) _ ?_
  refine nbrStep_supTo T Q I hI p q _ 12 (by decide) _ ?_
  refine nbrStep_supTo T Q I hI p q _ 11 (by decide) _ ?_
  refine nbrStep_supTo T Q I hI p q _ 10 (by decide) _ ?_
  refine nbrStep_supTo T Q I hI p q _ 9 (by decide) _ ?_
  exact hacc

/-- Neighbours 15 to 20. -/
theorem pay11_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (hacc : acc (ix2 p q) = supTo (edge T Q I hI p q) 15) :
    k0_pay11 (F := Ideal) T (k0_pay3 Q) (k0_pay4 (F := Ideal) I) colIota acc (k0_pay10 (k0_pay4 (F := Ideal) I) colIota) (ix2 p q)
      = supTo (edge T Q I hI p q) 21 := by
  unfold k0_pay11 k0_pay10
  refine nbrStep_supTo T Q I hI p q _ 20 (by decide) _ ?_
  refine nbrStep_supTo T Q I hI p q _ 19 (by decide) _ ?_
  refine nbrStep_supTo T Q I hI p q _ 18 (by decide) _ ?_
  refine nbrStep_supTo T Q I hI p q _ 17 (by decide) _ ?_
  refine nbrStep_supTo T Q I hI p q _ 16 (by decide) _ ?_
  refine nbrStep_supTo T Q I hI p q _ 15 (by decide) _ ?_
  exact hacc

/-- Neighbours 21 to 26. -/
theorem pay13_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (hacc : acc (ix2 p q) = supTo (edge T Q I hI p q) 21) :
    k0_pay13 (F := Ideal) T (k0_pay3 Q) (k0_pay4 (F := Ideal) I) colIota acc (k0_pay12 (k0_pay4 (F := Ideal) I) colIota) (ix2 p q)
      = supTo (edge T Q I hI p q) 27 := by
  unfold k0_pay13 k0_pay12
  refine nbrStep_supTo T Q I hI p q _ 26 (by decide) _ ?_
  refine nbrStep_supTo T Q I hI p q _ 25 (by decide) _ ?_
  refine nbrStep_supTo T Q I hI p q _ 24 (by decide) _ ?_
  refine nbrStep_supTo T Q I hI p q _ 23 (by decide) _ ?_
  refine nbrStep_supTo T Q I hI p q _ 22 (by decide) _ ?_
  refine nbrStep_supTo T Q I hI p q _ 21 (by decide) _ ?_
  exact hacc

/-- Neighbours 27 to 31, then the block's leading unit axis put back. -/
theorem pay1_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64)
    (acc : FVec Ideal S128x64 .f32) (hacc : acc (ix2 p q) = supTo (edge T Q I hI p q) 27) :
    k0_pay1 (F := Ideal) T (k0_pay3 Q) (k0_pay4 (F := Ideal) I) colIota acc (k0_pay14 (k0_pay4 (F := Ideal) I) colIota)
        (ix3 (0 : Fin 1) p q)
      = supTo (edge T Q I hI p q) 32 := by
  unfold k0_pay1 k0_pay14
  refine (shapeCast_ab_1ab_apply _ _ (0 : Fin 1) p q).trans ?_
  refine nbrStep_supTo T Q I hI p q _ 31 (by decide) _ ?_
  refine nbrStep_supTo T Q I hI p q _ 30 (by decide) _ ?_
  refine nbrStep_supTo T Q I hI p q _ 29 (by decide) _ ?_
  refine nbrStep_supTo T Q I hI p q _ 28 (by decide) _ ?_
  refine nbrStep_supTo T Q I hI p q _ 27 (by decide) _ ?_
  exact hacc

/-- A block of pooled features at (p, q), when every neighbour index of the block is a row number: the largest
    over the 32 neighbours k of T[I[p, k], q] − Q[p, q]. -/
theorem poolBlock_apply (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64) :
    poolBlock (F := Ideal) T Q I (ix3 (0 : Fin 1) p q)
      = Finset.univ.sup fun k : Fin 32 => T (ix2 (⟨(I (ix3 (0 : Fin 1) p k)).toNat, hI p k⟩ : Fin 4096) q) - Q (ix2 p q) := by
  unfold poolBlock
  exact (pay1_apply T Q I hI p q _ (pay13_apply T Q I hI p q _ (pay11_apply T Q I hI p q _
    (pay9_apply T Q I hI p q _ (pay7_apply T Q I hI p q _ (pay5_apply T Q I hI p q)))))).trans
      (supTo_all (edge T Q I hI p q))

end Cert.KernelIdeal.KVal

end
-- ==== Proof.KPieces.lean ====
/-
  What one run of the kernel body leaves behind, as values.

  At a grid point that is not the first of its batch the body only reads the scratch: the output block is
  `poolBlock` of the scratch's table, of the table's 128 rows that belong to the point's block, and of the
  block of neighbour indices. At the first point of a batch the body first fills the scratch with the table
  `k0_pay2` of the batch's points, the transposed weights and the bias, and then does the same from the table
  it has just written: the whole-table read and the 128-row read both see that one covering write.

  The 128-row read starts at row 128·r, where r is the point's second grid coordinate.
-/
import proofs.«431289_j61538291417252_2_alg».proof.Proof.Gen.KernelIdeal.Frame
import proofs.«431289_j61538291417252_2_alg».proof.Proof.KDefs
import Idealize.ShloMosaic.Lib.Pipeline.Value
import Idealize.ShloMosaic.Lib.Tactic

noncomputable section

namespace Cert.KernelIdeal.KVal

open Idealize.ShloMosaic Idealize.ShloMosaic.TcCoe Idealize.ShloMosaic.Tactic Idealize.SL.Sem
open Cert.KernelIdeal Cert.KernelIdeal.Gen Idealize.ShloMosaic.ValueIdx

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The second grid coordinate counts the 32 blocks of a batch. -/
theorem coord1_lt (i : grid0.Coords) : (i 1).val < 32 := (i 1).isLt

/-- A read of 128 rows of a table through the body's row window is the table's rows 128·r … 128·r + 127. -/
theorem ld_rows (T : Vec F S4096x64 .bf16) (i : grid0.Coords)
    (inb : ∀ a, k0_off1 i a + (![128, 64] : Fin 2 → Nat) a ≤ S4096x64.size a) :
    View.ld T (Rect.unit (k0_off1 i) ![128, 64] inb) = rowsAt T (i 1).val (coord1_lt i) := by
  funext y
  show T ((Rect.unit (k0_off1 i) ![128, 64] inb).idx y) = T _
  congr 1
  funext a
  apply Fin.ext
  have e0 : k0_off1 i 0 = 128 * (i 1).val := congrFun (k0_off1_eq i) 0
  have e1 : k0_off1 i 1 = 0 := congrFun (k0_off1_eq i) 1
  match a with
  | ⟨0, _⟩ =>
    show k0_off1 i 0 + 1 * (y 0).val = 128 * (i 1).val + (y 0).val
    omega
  | ⟨1, _⟩ =>
    show k0_off1 i 1 + 1 * (y 1).val = (y 1).val
    omega

/-- A point that is not the first of its batch: the output block from the scratch's table. -/
theorem out_B (c : Dev nD) (i : grid0.Coords) (arg2 : Memref sig .tc .vmem S1x4096x64 .bf16) (harg2 : arg2.IsWhole) (arg3 : Memref sig .tc .vmem S64x64 .bf16) (harg3 : arg3.IsWhole) (arg4 : Memref sig .tc .vmem S64 .f32) (harg4 : arg4.IsWhole) (arg5 : Memref sig .tc .vmem S1x128x32 .i32) (harg5 : arg5.IsWhole) (arg6 : Memref sig .tc .vmem S1x128x64 .f32) (harg6 : arg6.IsWhole) (arg7 : Memref sig .tc .vmem S4096x64 .bf16) (harg7 : arg7.IsWhole) (hc0 : ¬cond0_0 i) (x0 : Vec F S1x4096x64 .bf16) (x1 : Vec F S64x64 .bf16) (x2 : Vec F S64 .f32) (x3 : Vec F S1x128x32 .i32) (xs0 : Vec F S4096x64 .bf16) :
    out0_B_4 c i arg2 harg2 arg3 harg3 arg4 harg4 arg5 harg5 arg6 harg6 arg7 harg7 hc0 x0 x1 x2 x3 xs0 = poolBlock xs0 (rowsAt xs0 (i 1).val (coord1_lt i)) x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_run_names
  rw [View.canon_unit_zero hz3]
  simp only [View.readAt_eq_ld, harg7.read_unread, harg5.read_unread, View.ld_unit_zero (S := S4096x64) hz2,
    View.ld_unit_zero (S := S1x128x32) hz3, ld_rows]
  rfl

/-- The first point of a batch fills the scratch with the batch's table. -/
theorem sout_A (c : Dev nD) (i : grid0.Coords) (arg2 : Memref sig .tc .vmem S1x4096x64 .bf16) (harg2 : arg2.IsWhole) (arg3 : Memref sig .tc .vmem S64x64 .bf16) (harg3 : arg3.IsWhole) (arg4 : Memref sig .tc .vmem S64 .f32) (harg4 : arg4.IsWhole) (arg5 : Memref sig .tc .vmem S1x128x32 .i32) (harg5 : arg5.IsWhole) (arg6 : Memref sig .tc .vmem S1x128x64 .f32) (harg6 : arg6.IsWhole) (arg7 : Memref sig .tc .vmem S4096x64 .bf16) (harg7 : arg7.IsWhole) (hc0 : cond0_0 i) (x0 : Vec F S1x4096x64 .bf16) (x1 : Vec F S64x64 .bf16) (x2 : Vec F S64 .f32) (x3 : Vec F S1x128x32 .i32) :
    sout0_A_0 c i arg2 harg2 arg3 harg3 arg4 harg4 arg5 harg5 arg6 harg6 arg7 harg7 hc0 x0 x1 x2 x3 = k0_pay2 x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_run_names
  rw [View.canon_unit_zero hz2]
  simp only [View.readAt_eq_ld, harg2.read_unread, harg3.read_unread, harg4.read_unread,
    View.ld_unit_zero (S := S1x4096x64) hz3, View.ld_unit_zero (S := S64x64) hz2, View.ld_unit_zero (S := S64) hz1]

/-- The first point of a batch: the output block from the table just written. -/
theorem out_A (c : Dev nD) (i : grid0.Coords) (arg2 : Memref sig .tc .vmem S1x4096x64 .bf16) (harg2 : arg2.IsWhole) (arg3 : Memref sig .tc .vmem S64x64 .bf16) (harg3 : arg3.IsWhole) (arg4 : Memref sig .tc .vmem S64 .f32) (harg4 : arg4.IsWhole) (arg5 : Memref sig .tc .vmem S1x128x32 .i32) (harg5 : arg5.IsWhole) (arg6 : Memref sig .tc .vmem S1x128x64 .f32) (harg6 : arg6.IsWhole) (arg7 : Memref sig .tc .vmem S4096x64 .bf16) (harg7 : arg7.IsWhole) (hc0 : cond0_0 i) (x0 : Vec F S1x4096x64 .bf16) (x1 : Vec F S64x64 .bf16) (x2 : Vec F S64 .f32) (x3 : Vec F S1x128x32 .i32) :
    out0_A_4 c i arg2 harg2 arg3 harg3 arg4 harg4 arg5 harg5 arg6 harg6 arg7 harg7 hc0 x0 x1 x2 x3
      = poolBlock (k0_pay2 x0 x1 x2) (rowsAt (k0_pay2 x0 x1 x2) (i 1).val (coord1_lt i)) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_run_names
  rw [View.canon_unit_zero hz3]
  simp only [View.readCov_unit_zero (S := S4096x64) _ hz2, View.readAt_eq_ld, View.read_writes_junk_eq_canon,
    View.canon_unit_zero (S := S4096x64) hz2, harg2.read_unread, harg3.read_unread, harg4.read_unread, harg5.read_unread,
    View.ld_unit_zero (S := S1x4096x64) hz3, View.ld_unit_zero (S := S64x64) hz2, View.ld_unit_zero (S := S64) hz1,
    View.ld_unit_zero (S := S1x128x32) hz3, ld_rows]
  rfl

end Cert.KernelIdeal.KVal

end
-- ==== Proof.KPoints.lean ====
/-
  The kernel's output array, point by point.

  The grid has 8 × 32 points; point t works on batch t / 32 and on block t % 32 of that batch's 4096 points
  (128 points a block). Window 0 shows the body the whole batch of points, windows 1 and 2 the whole transposed
  weights and bias, window 3 the block's 128 × 32 neighbour indices, window 4 takes the block's 128 × 64 pooled
  features. Every point of a batch sees the same points, weights and bias, so the table the batch's first point
  writes into the scratch — the linear layer's output for the whole batch — is what every later point of the
  batch finds there: by induction on the point, the scratch after point t holds batch t / 32's table and the
  output block holds the pooled features of the block's 128 points. The 256 blocks tile the output array.
-/
import proofs.«431289_j61538291417252_2_alg».proof.Proof.KPieces
import Idealize.ShloMosaic.Lib.Pipeline.Value

noncomputable section

namespace Cert.KernelIdeal.KVal

open Idealize.ShloMosaic Idealize.ShloMosaic.TcCoe Idealize.SL.Sem
open Cert.KernelIdeal Cert.KernelIdeal.Gen Idealize.ShloMosaic.ValueIdx Cert.EdgePool
open Idealize.ShloMosaic.Pipeline (Dat)

variable (m : (ℓ : Loc nD τ sig) → Buf (Elt Ideal) ℓ)

/-- The arrays the region finds: the points (bf16), the transposed weights (bf16), the bias, the neighbour table. -/
abbrev Xarr (c : Dev nD) : FVec Ideal S8x4096x64 .bf16 := V m c main_v0
abbrev Warr (c : Dev nD) : FVec Ideal S64x64 .bf16 := V m c main_v2
abbrev Barr (c : Dev nD) : FVec Ideal S64 .f32 := V m c main_arg3
abbrev Iarr (c : Dev nD) : IVec S8x4096x32 32 := V m c main_arg1

/-- The four input blocks at point t, at their literal types. -/
abbrev blk0 (c : Dev nD) (t : Fin cfg0.N) : FVec Ideal S1x4096x64 .bf16 := iblk m c 0 t
abbrev blk1 (c : Dev nD) (t : Fin cfg0.N) : FVec Ideal S64x64 .bf16 := iblk m c 1 t
abbrev blk2 (c : Dev nD) (t : Fin cfg0.N) : FVec Ideal S64 .f32 := iblk m c 2 t
abbrev blk3 (c : Dev nD) (t : Fin cfg0.N) : IVec S1x128x32 32 := iblk m c 3 t

/-- The linear layer's output over those arrays. -/
def hOf (c : Dev nD) : Fin 8 → Fin 4096 → Fin 64 → EReal := linT (Xarr m c) (Warr m c) (Barr m c)

/-- Batch b's table, as the scratch holds it. -/
def hTab (c : Dev nD) (b : Fin 8) : FVec Ideal S4096x64 .bf16 := fun y => hOf m c b (y 0) (y 1)

/-- Point n's batch. -/
def bOf (n : ℕ) : Fin 8 := ⟨n / 32 % 8, Nat.mod_lt _ (by decide)⟩

/-- Row p of point n's block, as a row of the batch. -/
def rowOf (n p : ℕ) : Fin 4096 := ⟨(128 * (n % 32) + p) % 4096, Nat.mod_lt _ (by decide)⟩

/-- The pooled features of point n's block. -/
def poolOut (c : Dev nD) (n : ℕ) : FVec Ideal S1x128x64 .f32 :=
  fun y => pooledAt (hOf m c) (Iarr m c) (bOf n) (rowOf n (y 1).val) (y 2)

/-- The grid's coordinates and every window's block index at point t, decided over the 256 points. -/
theorem idx_facts : ∀ t : Fin cfg0.N,
    (grid0.coords t 0).val = t.val / 32 ∧ (grid0.coords t 1).val = t.val % 32
    ∧ win0_0.index t (0 : Fin 3) = t.val / 32 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val / 32 ∧ win0_3.index t (1 : Fin 3) = t.val % 32 ∧ win0_3.index t (2 : Fin 3) = 0
    ∧ win0_4.index t (0 : Fin 3) = t.val / 32 ∧ win0_4.index t (1 : Fin 3) = t.val % 32 ∧ win0_4.index t (2 : Fin 3) = 0 :=
  (by decide +kernel : ∀ t : Fin grid0.N, _)

theorem t_lt (t : Fin cfg0.N) : t.val < 256 := lt_of_lt_of_eq t.isLt (show cfg0.N = 256 from N_0)

/-- Window 0's block at point t: the batch's points. -/
theorem iblk0_apply (c : Dev nD) (t : Fin cfg0.N) (y : S1x4096x64.Idx) :
    blk0 m c t y = Xarr m c (ix3 (bOf t.val) (y 1) (y 2)) := by
  obtain ⟨-, -, e0, e1, e2, -⟩ := idx_facts t
  have ht := t_lt t
  have h0 : (y 0).val < 1 := (y 0).isLt
  unfold blk0 iblk
  rw [View.read_apply]
  show V m c main_v0 _ = V m c main_v0 _
  congr 1
  funext a
  apply Fin.ext
  match a with
  | ⟨0, _⟩ => show win0_0.index t (0 : Fin 3) * 1 + 1 * (y 0).val = t.val / 32 % 8; omega
  | ⟨1, _⟩ => show win0_0.index t (1 : Fin 3) * 4096 + 1 * (y 1).val = (y 1).val; omega
  | ⟨2, _⟩ => show win0_0.index t (2 : Fin 3) * 64 + 1 * (y 2).val = (y 2).val; omega

/-- Window 1's block: the whole transposed weights. -/
theorem iblk1_apply (c : Dev nD) (t : Fin cfg0.N) (y : S64x64.Idx) :
    blk1 m c t y = Warr m c y := by
  obtain ⟨-, -, -, -, -, e0, e1, -⟩ := idx_facts t
  unfold blk1 iblk
  rw [View.read_apply]
  show V m c main_v2 _ = V m c main_v2 _
  congr 1
  funext a
  apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- Window 2's block: the whole bias. -/
theorem iblk2_apply (c : Dev nD) (t : Fin cfg0.N) (y : S64.Idx) :
    blk2 m c t y = Barr m c y := by
  obtain ⟨-, -, -, -, -, -, -, e0, -⟩ := idx_facts t
  unfold blk2 iblk
  rw [View.read_apply]
  show V m c main_arg3 _ = V m c main_arg3 _
  congr 1
  funext a
  apply Fin.ext
  match a with
  | ⟨0, _⟩ => show win0_2.index t (0 : Fin 1) * 64 + 1 * (y 0).val = (y 0).val; omega

/-- Window 3's block at point t: the neighbour indices of the block's 128 points. -/
theorem iblk3_apply (c : Dev nD) (t : Fin cfg0.N) (y : S1x128x32.Idx) :
    blk3 m c t y = Iarr m c (ix3 (bOf t.val) (rowOf t.val (y 1).val) (y 2)) := by
  obtain ⟨-, -, -, -, -, -, -, -, e0, e1, e2, -⟩ := idx_facts t
  have ht := t_lt t
  have h0 : (y 0).val < 1 := (y 0).isLt
  have h1 : (y 1).val < 128 := (y 1).isLt
  unfold blk3 iblk
  rw [View.read_apply]
  show V m c main_arg1 _ = V m c main_arg1 _
  congr 1
  funext a
  apply Fin.ext
  match a with
  | ⟨0, _⟩ => show win0_3.index t (0 : Fin 3) * 1 + 1 * (y 0).val = t.val / 32 % 8; omega
  | ⟨1, _⟩ => show win0_3.index t (1 : Fin 3) * 128 + 1 * (y 1).val = (128 * (t.val % 32) + (y 1).val) % 4096; omega
  | ⟨2, _⟩ => show win0_3.index t (2 : Fin 3) * 32 + 1 * (y 2).val = (y 2).val; omega

/-! ## Over the body's arithmetic read at an index

The table at an index and a pooled block at an index are facts about the body's arithmetic alone, independent of
the grid; the statements about grid points below take them as hypotheses. -/

section Points

variable (hlin : ∀ (X : FVec Ideal S1x4096x64 .bf16) (Wt : FVec Ideal S64x64 .bf16) (B : FVec Ideal S64 .f32)
    (n : Fin 4096) (o : Fin 64),
    k0_pay2 (F := Ideal) X Wt B (ix2 n o) = (∑ c : Fin 64, X (ix3 (0 : Fin 1) n c) * Wt (ix2 c o)) + B (ix1 o))
variable (hpool : ∀ (T : FVec Ideal S4096x64 .bf16) (Q : FVec Ideal S128x64 .bf16) (I : IVec S1x128x32 32)
    (hI : ∀ (p : Fin 128) (k : Fin 32), (I (ix3 (0 : Fin 1) p k)).toNat < 4096) (p : Fin 128) (q : Fin 64),
    poolBlock (F := Ideal) T Q I (ix3 (0 : Fin 1) p q)
      = Finset.univ.sup fun k : Fin 32 => T (ix2 (⟨(I (ix3 (0 : Fin 1) p k)).toNat, hI p k⟩ : Fin 4096) q) - Q (ix2 p q))

include hlin in
/-- The table computed from point t's blocks is the table of t's batch. -/
theorem pay2_blocks (c : Dev nD) (t : Fin cfg0.N) :
    k0_pay2 (F := Ideal) (blk0 m c t) (blk1 m c t) (blk2 m c t) = hTab m c (bOf t.val) := by
  funext y
  obtain ⟨n, o, rfl⟩ : ∃ (n : Fin 4096) (o : Fin 64), y = ix2 n o := ⟨y 0, y 1, eq_ix2 y⟩
  refine (hlin (blk0 m c t) (blk1 m c t) (blk2 m c t) n o).trans ?_
  show (∑ c' : Fin 64, blk0 m c t (ix3 (0 : Fin 1) n c') * blk1 m c t (ix2 c' o)) + blk2 m c t (ix1 o)
    = (∑ c' : Fin 64, Xarr m c (ix3 (bOf t.val) n c') * Warr m c (ix2 c' o)) + Barr m c (ix1 o)
  simp only [iblk0_apply, iblk1_apply, iblk2_apply]

include hpool in
/-- From the table of t's batch, point t's output block is the pooled features of t's block. -/
theorem pool_blocks (c : Dev nD) (hI : InRange (Iarr m c)) (t : Fin cfg0.N) :
    poolBlock (F := Ideal) (hTab m c (bOf t.val)) (rowsAt (F := Ideal) (hTab m c (bOf t.val)) (grid0.coords t 1).val (coord1_lt _))
      (blk3 m c t) = poolOut m c t.val := by
  obtain ⟨-, er, -⟩ := idx_facts t
  have ht := t_lt t
  funext y
  obtain ⟨p, q, rfl⟩ : ∃ (p : Fin 128) (q : Fin 64), y = ix3 (0 : Fin 1) p q := ⟨y 1, y 2, by
    funext a
    match a with
    | ⟨0, _⟩ => exact Subsingleton.elim (α := Fin 1) _ _
    | ⟨1, _⟩ => rfl
    | ⟨2, _⟩ => rfl⟩
  have hI' : ∀ (p : Fin 128) (k : Fin 32), (blk3 m c t (ix3 (0 : Fin 1) p k)).toNat < 4096 := fun p k => by
    rw [iblk3_apply]; exact hI _
  have hstep := hpool (hTab m c (bOf t.val)) (rowsAt (F := Ideal) (hTab m c (bOf t.val)) (grid0.coords t 1).val (coord1_lt (grid0.coords t)))
    (blk3 m c t) hI' p q
  refine hstep.trans ?_
  show _ = pooledAt (hOf m c) (Iarr m c) (bOf t.val) (rowOf t.val p.val) q
  unfold pooledAt
  refine Finset.sup_congr rfl fun k _ => ?_
  have hp : p.val < 128 := p.isLt
  have e1 : (⟨(blk3 m c t (ix3 (0 : Fin 1) p k)).toNat, hI' p k⟩ : Fin 4096)
      = nbr (Iarr m c) (bOf t.val) (rowOf t.val p.val) k := by
    apply Fin.ext
    show (blk3 m c t (ix3 (0 : Fin 1) p k)).toNat = (nbr (Iarr m c) (bOf t.val) (rowOf t.val p.val) k).val
    rw [nbr_val _ hI]
    exact congrArg BitVec.toNat (iblk3_apply m c t (ix3 (0 : Fin 1) p k))
  have e2 : (⟨128 * (grid0.coords t 1).val + p.val, by omega⟩ : Fin 4096) = rowOf t.val p.val := by
    apply Fin.ext
    show 128 * (grid0.coords t 1).val + p.val = (128 * (t.val % 32) + p.val) % 4096
    omega
  unfold edgeOf
  refine congrArg₂ (· - ·) ?_ ?_
  · exact congrArg (fun r => hOf m c (bOf t.val) r q) e1
  · exact congrArg (fun r => hOf m c (bOf t.val) r q) e2

include hlin hpool in
/-- A batch's first point: the scratch takes the batch's table, the output block its block's pooled features. -/
theorem step_A (c : Dev nD) (hI : InRange (Iarr m c)) (t : Fin cfg0.N) (h0 : t.val % 32 = 0) :
    (outsAt0 m c t.val t.isLt).2 = hTab m c (bOf t.val) ∧ (outsAt0 m c t.val t.isLt).1 = poolOut m c t.val := by
  rw [outsAt0_A m c t h0]
  dsimp only
  refine ⟨(sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans (pay2_blocks m hlin c t), ?_⟩
  refine (out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
  have e : k0_pay2 (F := Ideal) (iblk m c 0 t) (iblk m c 1 t) (iblk m c 2 t) = hTab m c (bOf t.val) := pay2_blocks m hlin c t
  rw [e]
  exact pool_blocks m hpool c hI t

include hpool in
/-- A later point of a batch: the scratch keeps the table the point before left, which is the batch's. -/
theorem step_B (c : Dev nD) (hI : InRange (Iarr m c)) (t : Fin cfg0.N) (h0 : ¬t.val % 32 = 0)
    (prev : (outsAt0 m c (t.val - 1) (Nat.lt_of_le_of_lt (Nat.sub_le _ _) t.isLt)).2 = hTab m c (bOf t.val)) :
    (outsAt0 m c t.val t.isLt).2 = hTab m c (bOf t.val) ∧ (outsAt0 m c t.val t.isLt).1 = poolOut m c t.val := by
  rw [outsAt0_B m c t h0]
  dsimp only
  refine ⟨prev, ?_⟩
  refine (out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2).trans ?_
  rw [prev]
  exact pool_blocks m hpool c hI t

include hlin hpool in
/-- After every point: the scratch holds the point's batch's table and the output block the pooled features of
    the point's block. By induction on the point: within a batch the table is handed on unchanged. -/
theorem outs_inv (c : Dev nD) (hI : InRange (Iarr m c)) : ∀ (n : ℕ) (hn : n < cfg0.N),
    (outsAt0 m c n hn).2 = hTab m c (bOf n) ∧ (outsAt0 m c n hn).1 = poolOut m c n := by
  intro n
  induction n using Nat.strong_induction_on with
  | _ n ih =>
    intro hn
    by_cases h0 : n % 32 = 0
    · exact step_A m hlin hpool c hI ⟨n, hn⟩ h0
    · refine step_B m hpool c hI ⟨n, hn⟩ h0 ?_
      have hb : bOf (n - 1) = bOf n := by
        unfold bOf
        apply Fin.ext
        show (n - 1) / 32 % 8 = n / 32 % 8
        omega
      have := (ih (n - 1) (by omega) (Nat.lt_of_le_of_lt (Nat.sub_le _ _) hn)).1
      rw [hb] at this
      exact this

include hlin hpool in
/-- What point t writes back is block t of the pooled array. -/
theorem flushed_eq (c : Dev nD) (hI : InRange (Iarr m c)) (t : Fin cfg0.N) :
    (dats m 0 c).flushed 4 t = ((cfg0.win 4).blk t).view.read (Elt Ideal) (pooledOf (hOf m c) (Iarr m c)) := by
  obtain ⟨-, -, -, -, -, -, -, -, -, -, -, e0, e1, e2⟩ := idx_facts t
  have ht := t_lt t
  show (cfg0.win 4).cut (grid0.coords t) ((dats m 0 c).after 4 t) = _
  rw [after0_4, (outs_inv m hlin hpool c hI t.val t.isLt).2]
  funext y
  rw [View.read_apply]
  have h0 : (y 0).val < 1 := (y 0).isLt
  have h1 : (y 1).val < 128 := (y 1).isLt
  show pooledAt (hOf m c) (Iarr m c) (bOf t.val) (rowOf t.val (y 1).val) (y 2)
    = pooledAt (hOf m c) (Iarr m c) ((((cfg0.win 4).blk t).view.emb y) 0) ((((cfg0.win 4).blk t).view.emb y) 1) ((((cfg0.win 4).blk t).view.emb y) 2)
  congr 1
  · apply Fin.ext
    show t.val / 32 % 8 = win0_4.index t (0 : Fin 3) * 1 + 1 * (y 0).val
    omega
  · apply Fin.ext
    show (128 * (t.val % 32) + (y 1).val) % 4096 = win0_4.index t (1 : Fin 3) * 128 + 1 * (y 1).val
    omega
  · apply Fin.ext
    show (y 2).val = win0_4.index t (2 : Fin 3) * 64 + 1 * (y 2).val
    omega

/-- An index of the output array is in point t's block iff each coordinate is in the block's range. -/
theorem mem_blk (t : Fin cfg0.N) (i : S8x4096x64.Idx) :
    i ∈ ((cfg0.win 4).blk t).view.set ↔ ∀ a : Fin 3, win0_4.index t a * S1x128x64.size a ≤ (i a).val
      ∧ (i a).val < win0_4.index t a * S1x128x64.size a + S1x128x64.size a := by
  show i ∈ ((View.whole main_v3).slice (win0_4.rect t)).set ↔ _
  rw [View.set_slice_whole, Rect.mem_set_unit]
  exact Iff.rfl

include hlin hpool in
/-- The 256 blocks tile the output array, so after the last point it is the pooled array. -/
theorem final (c : Dev nD) (hI : InRange (Iarr m c)) :
    (dats m 0 c).arrAt 4 cfg0.N = pooledOf (hOf m c) (Iarr m c) :=
  (dats m 0 c).arrAt_eq_of_cover 4 (pooledOf (hOf m c) (Iarr m c)) (fun t _ => flushed_eq m hlin hpool c hI t) fun i => by
    have h0 : (i 0).val < 8 := (i 0).isLt
    have h1 : (i 1).val < 4096 := (i 1).isLt
    have h2 : (i 2).val < 64 := (i 2).isLt
    have hN : cfg0.N = 256 := N_0
    let t : Fin cfg0.N := ⟨32 * (i 0).val + (i 1).val / 128, by omega⟩
    obtain ⟨-, -, -, -, -, -, -, -, -, -, -, e0, e1, e2⟩ := idx_facts t
    have tv : t.val = 32 * (i 0).val + (i 1).val / 128 := rfl
    refine ⟨t, flush0_4 t, ?_⟩
    rw [mem_blk]
    intro a
    match a with
    | ⟨0, _⟩ =>
      show win0_4.index t (0 : Fin 3) * 1 ≤ (i 0).val ∧ (i 0).val < win0_4.index t (0 : Fin 3) * 1 + 1
      omega
    | ⟨1, _⟩ =>
      show win0_4.index t (1 : Fin 3) * 128 ≤ (i 1).val ∧ (i 1).val < win0_4.index t (1 : Fin 3) * 128 + 128
      omega
    | ⟨2, _⟩ =>
      show win0_4.index t (2 : Fin 3) * 64 ≤ (i 2).val ∧ (i 2).val < win0_4.index t (2 : Fin 3) * 64 + 64
      omega

end Points

end Cert.KernelIdeal.KVal

end
-- ==== Proof.KTail.lean ====
/-
  The kernel program's host side: the two arrays its host operations write before the launch (the points cast
  to bf16, the weights transposed and cast), the batch normalisation after the launch read as the shared tail
  of the output array, and from them the program's run once the output array is known.
-/
import proofs.«431289_j61538291417252_2_alg».proof.Proof.Gen.KernelIdeal.Frame
import proofs.«431289_j61538291417252_2_alg».proof.Proof.KDefs
import Idealize.ShloMosaic.Lib.StableHlo.Run

noncomputable section

namespace Cert.KernelIdeal.KVal

open Idealize.ShloMosaic Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ)

/-- The tail's side conditions, as the kernel's program states them. -/
theorem tailFacts : Cert.EdgePool.TailFacts :=
  ⟨Facts₀.h_S_, Facts₀.shapeCasts_S8x4096x64_S32768x64, Facts₀.reducesTo_S32768x64_S64_d0, Facts₀.bcast_S_S64,
    Facts₀.bcast_S64_S1x64_1, Facts₀.bcast_S_S1x64, Facts₀.bcast_S1x64_S32768x64_0_1, Facts₀.shapeCasts_S32768x64_S8x4096x64⟩

/-- Window 0's array when the region is entered: the points, cast to bf16. -/
theorem V_main_v0 (c : Dev nD) :
    V m c main_v0 = (truncf .bf16 (m ((c.tc : Thread nD τ).loc main_arg0)) bitsLt_bf16_f32 : FVec Ideal S8x4096x64 .bf16) := by
  show StableHlo.after hostOps0 (fun b => m (c, b)) (Proc.devRef .tc main_v0) = _
  after_results

/-- Window 1's array when the region is entered: the weights transposed, cast to bf16. -/
theorem V_main_v2 (c : Dev nD) :
    V m c main_v2 = (truncf .bf16 (transpose S64x64 [1, 0] (m ((c.tc : Thread nD τ).loc main_arg2)) Facts₀.transposes_S64x64_S64x64_1_0)
      bitsLt_bf16_f32 : FVec Ideal S64x64 .bf16) := by
  show StableHlo.after hostOps0 (fun b => m (c, b)) (Proc.devRef .tc main_v2) = _
  after_results

/-- The forty-six host operations after the launch, started from any buffer contents W, leave in the result buffer
    the shared tail of what W holds at the output array and at the scale and shift vectors: flatten, the mean and the
    variance per channel (the variance through the program's local function), normalise, scale, shift, reshape back.
    Each operation's result is read at its own buffer and passed on to its consumers; the composed term is the tail's
    own, operation for operation, the side conditions differing only as proofs of the same propositions. -/
theorem tail_after (W : Valuation τ sig (Elt Ideal)) :
    StableHlo.after (List.flatten [hostOps1, hostOps1_1, hostOps1_2]) W (Proc.devRef .tc main_v24)
      = Cert.EdgePool.bnTail tailFacts (W (Proc.devRef .tc main_v3)) (W (Proc.devRef .tc main_arg4)) (W (Proc.devRef .tc main_arg5)) := by
  simp only [hostOps1, hostOps1_1, hostOps1_2, List.flatten_cons, List.flatten_nil, List.append_nil, List.cons_append, List.nil_append]
  after_results_simp
  -- the local function's values are carried at their own types: the transports along a reflexive equation are identities
  simp only [StableHlo.TRef.ofBuf, StableHlo.TRef.toBuf, cast_eq]
  unfold Cert.EdgePool.bnTail Cert.EdgePool.normFlat Cert.EdgePool.varOf Cert.EdgePool.meanOf Cert.EdgePool.rows
  rfl

/-- The same with the three operands named. -/
theorem tail_of (W : Valuation τ sig (Elt Ideal)) (G : FVec Ideal S8x4096x64 .f32) (γ β : FVec Ideal S64 .f32)
    (h3 : W (Proc.devRef .tc main_v3) = G) (h4 : W (Proc.devRef .tc main_arg4) = γ) (h5 : W (Proc.devRef .tc main_arg5) = β) :
    StableHlo.after (List.flatten [hostOps1, hostOps1_1, hostOps1_2]) W (Proc.devRef .tc main_v24)
      = Cert.EdgePool.bnTail tailFacts G γ β := by
  subst h3 h4 h5
  exact tail_after W

/-- The result buffer after the host operations that follow the launch, on core c: the region leaves the output
    window's array at what it holds after the last grid point (G) and the scale and shift vectors as launched (no
    window stages them, no host operation before the launch writes them). -/
theorem tail_eq (c : Dev nD) (G : FVec Ideal S8x4096x64 .f32) (hfinal : (dats m 0 c).arrAt 4 cfg0.N = G) :
    Pipeline.afterTail₀ cfgs (dats m) 0 (V0 m) [hostOps1, hostOps1_1, hostOps1_2] c main_v24
      = Cert.EdgePool.bnTail tailFacts G (m ((c.tc : Thread nD τ).loc main_arg4)) (m ((c.tc : Thread nD τ).loc main_arg5)) := by
  unfold Pipeline.afterTail₀
  exact tail_of _ G _ _
    ((Pipeline.withArrays_arr spec0 launch0.win.arr_inj c (V0 m c) (fun w => (dats m 0 c).arrAt w cfg0.N) 4).trans hfinal)
    ((Pipeline.withArrays_of_ne spec0 c (V0 m c) (fun w => (dats m 0 c).arrAt w cfg0.N) main_arg4
      (by exact (by decide : ∀ w, Pipeline.arrRef spec0 w ≠ main_arg4))).trans (V_main_arg4 m c))
    ((Pipeline.withArrays_of_ne spec0 c (V0 m c) (fun w => (dats m 0 c).arrAt w cfg0.N) main_arg5
      (by exact (by decide : ∀ w, Pipeline.arrRef spec0 w ≠ main_arg5))).trans (V_main_arg5 m c))

/-- The program's run, given what the output window's array holds after the last grid point (`G c` on core c):
    the result buffer ends at the shared tail of it, and the arguments are unchanged. -/
theorem run_of_final (ρ : Dev nD → PrngReg) (G : Dev nD → FVec Ideal S8x4096x64 .f32)
    (hfinal : ∀ c : Dev nD, (dats m 0 c).arrAt 4 cfg0.N = G c) :
    θ_run (defs (F := Ideal)) (onTc (τ := τ) (main (F := Ideal))) ⟨m, fun _ => 0, ρ⟩ (fun r => ∀ c : Dev nD,
      r.2.mem ((c.tc : Thread nD τ).loc main_v24)
        = Cert.EdgePool.bnTail tailFacts (G c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  -- every final state has the windows' arrays at the library's reading of the proof data and every other unscoped
  -- buffer as the later host operations leave it: the result buffer and four arguments are of the second kind, the
  -- neighbour table and the bias are input windows' arrays, unchanged by the region
  (θ_run defs _ _).mono (fun _ h c =>
    ⟨((h c).2 main_v24 (Pipeline.mem_restRefs_of main_v24 (by decide) (by decide))).trans (tail_eq m c (G c) (hfinal c)),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KVal

end
-- ==== Proof.lean ====
/-
  An EdgeConv layer followed by a batch normalisation: the Pallas kernel against its jnp reference, over the
  extended reals.

  Both programs compute, for 8 batches of 4096 points with 64 features,
      h[b, n, o]      = Σ_c x[b, n, c] · W[o, c] + bias[o]                      (a linear layer)
      pooled[b, n, o] = max over the 32 neighbours k of  h[b, idx[b, n, k], o] − h[b, n, o]
  and then normalise each channel of the 32768 pooled rows by its mean and biased variance, scale by γ and
  shift by β.

  The reference gathers the neighbour rows with an indexed read. The kernel keeps a batch's whole table h[b]
  in a scratch buffer — written by the batch's first grid point, found unchanged by the 31 later ones — and
  picks a neighbour's row by multiplying the table with an indicator row [j = idx]: Σ_j [j = i] · h[j] = h[i],
  because 0 · y = 0 and 1 · y = y on the extended reals. That is a row of the table exactly when idx is one of
  the table's 4096 row numbers, which is the added precondition; the reference's own indexed read is only
  meaningful there. With it the two pooled arrays are the same function of the arguments, index by index: the
  same sum in the same order for h (the kernel multiplies by the weights transposed on the host, and the casts
  to and from bf16 are the identity here), and a running maximum from −∞ over the neighbours in order against
  a maximum over the neighbour axis, both the supremum of the 32 edge features. The normalisation is the same
  host operations with the same literals in both programs and is carried as one function of the pooled array.

  The kernel's and its idealization's frames are the generated ones; the reference's frame is its run with the
  result dropped; the ideal pass rewrote nothing.
-/
import proofs.«431289_j61538291417252_2_alg».proof.Defs
import proofs.«431289_j61538291417252_2_alg».proof.Proof.Gen.Kernel
import proofs.«431289_j61538291417252_2_alg».proof.Proof.Gen.Kernel.Skeleton
import proofs.«431289_j61538291417252_2_alg».proof.Proof.Gen.Kernel.Launch
import proofs.«431289_j61538291417252_2_alg».proof.Proof.Gen.Kernel.Points
import proofs.«431289_j61538291417252_2_alg».proof.Proof.Gen.Kernel.Frame
import proofs.«431289_j61538291417252_2_alg».proof.Proof.Gen.KernelIdeal
import proofs.«431289_j61538291417252_2_alg».proof.Proof.Gen.KernelIdeal.Skeleton
import proofs.«431289_j61538291417252_2_alg».proof.Proof.Gen.KernelIdeal.Launch
import proofs.«431289_j61538291417252_2_alg».proof.Proof.Gen.KernelIdeal.Points
import proofs.«431289_j61538291417252_2_alg».proof.Proof.Gen.KernelIdeal.Frame
import proofs.«431289_j61538291417252_2_alg».proof.Proof.Gen.ReferenceIdeal
import proofs.«431289_j61538291417252_2_alg».proof.Proof.Gen.Pre_finite_inputs
import proofs.«431289_j61538291417252_2_alg».proof.Proof.RefRun
import proofs.«431289_j61538291417252_2_alg».proof.Proof.RefValue
import proofs.«431289_j61538291417252_2_alg».proof.Proof.PreRange
import proofs.«431289_j61538291417252_2_alg».proof.Proof.KPay
import proofs.«431289_j61538291417252_2_alg».proof.Proof.KPoints
import proofs.«431289_j61538291417252_2_alg».proof.Proof.KTail
import Idealize.ShloMosaic.Lib.ValueLayout
import Idealize.ShloMosaic.Adequacy
import Idealize.ShloMosaic.Init

noncomputable section

/-! ## The kernel's output array over the argument arrays -/

namespace Cert.KernelIdeal.KVal

open Idealize.ShloMosaic Idealize.ShloMosaic.TcCoe Idealize.SL.Sem
open Cert.KernelIdeal Cert.KernelIdeal.Gen Idealize.ShloMosaic.ValueIdx Cert.EdgePool

variable (m : (ℓ : Loc nD τ sig) → Buf (Elt Ideal) ℓ)

/-- The table the kernel builds from the cast points and the transposed, cast weights is the linear layer of
    the arguments: the casts are the identity, and the host transpose at (c, o) is W at (o, c). -/
theorem hOf_eq (c : Dev nD) :
    hOf m c = lin (m ((c.tc : Thread nD τ).loc main_arg0)) (m ((c.tc : Thread nD τ).loc main_arg2))
      (m ((c.tc : Thread nD τ).loc main_arg3)) := by
  funext b n o
  show linT (Xarr m c) (Warr m c) (Barr m c) b n o = _
  unfold linT lin
  have eX : ∀ j, Xarr m c j = m ((c.tc : Thread nD τ).loc main_arg0) j := fun j => by
    show V m c main_v0 j = _
    rw [V_main_v0]
    rfl
  have eW : ∀ (a b : Fin 64), Warr m c (ix2 a b) = m ((c.tc : Thread nD τ).loc main_arg2) (ix2 b a) := fun a b => by
    show V m c main_v2 (ix2 a b) = _
    rw [V_main_v2]
    exact transpose_ix2_apply _ _ a b
  have eB : Barr m c = m ((c.tc : Thread nD τ).loc main_arg3) := V_main_arg3 m c
  simp only [eX, eW, eB]

/-- After the last grid point the output array holds the pooled features of the arguments. -/
theorem kfinal (c : Dev nD) (hI : InRange (m ((c.tc : Thread nD τ).loc main_arg1))) :
    (dats m 0 c).arrAt 4 cfg0.N
      = pooled (m ((c.tc : Thread nD τ).loc main_arg0)) (m ((c.tc : Thread nD τ).loc main_arg2))
          (m ((c.tc : Thread nD τ).loc main_arg3)) (m ((c.tc : Thread nD τ).loc main_arg1)) := by
  have eI : Iarr m c = m ((c.tc : Thread nD τ).loc main_arg1) := V_main_arg1 m c
  have hI' : InRange (Iarr m c) := by rw [eI]; exact hI
  rw [final m linBlock_apply poolBlock_apply c hI', hOf_eq, eI]
  rfl

end Cert.KernelIdeal.KVal

/-! ## The claims -/

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- From memories agreeing on the arguments, with the neighbour table in range, both programs end with the
    normalisation of one and the same pooled array. -/
theorem algebraic : Cert.algebraic_KernelIdeal_ReferenceIdeal := by
  intro m ρ m' ρ' hpre hagree
  have hidx : ∀ c : Dev Cert.KernelIdeal.nD,
      Cert.EdgePool.InRange (m ((c.tc : Thread Cert.KernelIdeal.nD Cert.KernelIdeal.τ).loc Cert.KernelIdeal.main_arg1)) :=
    fun c => Cert.Pre_finite_inputs.Range.inRange_of_pre _ _ _ _ _ _ (hpre c)
  refine ⟨fun c => Cert.EdgePool.bnTail Cert.KernelIdeal.KVal.tailFacts
      (Cert.EdgePool.pooled
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact Cert.KernelIdeal.KVal.run_of_final m ρ _ (fun c => Cert.KernelIdeal.KVal.kfinal m c (hidx c))
  · refine (θ_run Cert.ReferenceIdeal.defs _ _).mono (fun r h c => ⟨(h c).1.trans ?_, (h c).2⟩)
      (Cert.ReferenceIdeal.RefRun.run m' ρ')
    obtain ⟨a0, a1, a2, a3, a4, a5⟩ := hagree c
    rw [a0, a1, a2, a3, a4, a5]
    unfold Cert.ReferenceIdeal.RefValue.refOut
    rw [Cert.ReferenceIdeal.RefValue.refAgg_eq _ _ _ _ (hidx c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
